-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x500000x4 : Shape := ⟨3, ![8, 500000, 4]⟩
abbrev S8 : Shape := ⟨1, ![8]⟩
abbrev S_ : Shape := ⟨0, ![]⟩

class Facts : Prop where
  bcast_S_S8x500000x4 : S_.BroadcastsInDim S8x500000x4 (![] : Fin 0 → Fin S8x500000x4.rank)
  reducesTo_S8x500000x4_S_d0_1_2 : S8x500000x4.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x500000x4 .f32) (main_arg1 : IVec S8 32) : IVec S_ 1 :=
  let main_v0 : FVec F S8x500000x4 .f32 := Host.absf main_arg0
  let main_cst : FVec F S_ .f32 := constant S_ .f32 0x7F800000#32
  let main_v1 : FVec F S8x500000x4 .f32 := broadcastInDim S8x500000x4 ![] bcast_S_S8x500000x4 main_cst
  let main_v2 : IVec S8x500000x4 1 := cmpf .olt main_v0 main_v1
  let main_c : IVec S_ 1 := constantI S_ 1 1#1
  let main_v3 : IVec S_ 1 := (fun x v => Host.reduce IntOp.andi x v reducesTo_S8x500000x4_S_d0_1_2 h_S_) main_v2 main_c
  let main_c_0 : IVec S_ 32 := constantI S_ 32 500000#32
  let main_v4 : IVec S8 32 := broadcastInDim S8 ![] bcast_S_S8 main_c_0
  let main_v5 : IVec S8 1 := cmpi .sle main_arg1 main_v4
  let main_c_1 : IVec S_ 1 := constantI S_ 1 1#1
  let main_v6 : IVec S_ 1 := (fun x v => Host.reduce IntOp.andi x v reducesTo_S8_S_d0 h_S_) main_v5 main_c_1
  let main_v7 : IVec S_ 1 := andi main_v3 main_v6
  main_v7
-- ==== Kernel.lean ====
abbrev S8x500000x4 : Shape := ⟨3, ![8, 500000, 4]⟩
abbrev S8 : Shape := ⟨1, ![8]⟩
abbrev S8x4x500000 : Shape := ⟨3, ![8, 4, 500000]⟩
abbrev S_ : Shape := ⟨0, ![]⟩
abbrev S8x4x524288 : Shape := ⟨3, ![8, 4, 524288]⟩
abbrev S8x32x65536 : Shape := ⟨3, ![8, 32, 65536]⟩
abbrev S8x16x65536 : Shape := ⟨3, ![8, 16, 65536]⟩
abbrev S1x32x16384 : Shape := ⟨3, ![1, 32, 16384]⟩
abbrev S1x16x16384 : Shape := ⟨3, ![1, 16, 16384]⟩
abbrev S32x16384 : Shape := ⟨2, ![32, 16384]⟩
abbrev S8x16384 : Shape := ⟨2, ![8, 16384]⟩
abbrev S1 : Shape := ⟨1, ![1]⟩
abbrev S1x8x16384 : Shape := ⟨3, ![1, 8, 16384]⟩
abbrev S8388608 : Shape := ⟨1, ![8388608]⟩
abbrev S147456000 : Shape := ⟨1, ![147456000]⟩
abbrev S8388608x1 : Shape := ⟨2, ![8388608, 1]⟩
abbrev S8x20x720x1280 : Shape := ⟨4, ![8, 20, 720, 1280]⟩

abbrev nBuf : Space → Nat
  | .hbm => 22
  | .vmem => 6
  | .smem => 1
  | _ => 0

abbrev bufTy : (tb : Table) → Fin (tcTables nBuf tb) → BufTy
  | .hbm, ⟨0, _⟩ => ⟨S8x500000x4, .f32⟩
  | .hbm, ⟨1, _⟩ => ⟨S8x4x500000, .f32⟩
  | .hbm, ⟨2, _⟩ => ⟨S_, .i32⟩
  | .hbm, ⟨3, _⟩ => ⟨S_, .f32⟩
  | .hbm, ⟨4, _⟩ => ⟨S8x4x524288, .f32⟩
  | .hbm, ⟨5, _⟩ => ⟨S8x32x65536, .f32⟩
  | .hbm, ⟨6, _⟩ => ⟨S8x16x65536, .i32⟩
  | .hbm, ⟨7, _⟩ => ⟨S8x16x65536, .f32⟩
  | .hbm, ⟨8, _⟩ => ⟨S8388608, .i32⟩
  | .hbm, ⟨9, _⟩ => ⟨S8388608, .f32⟩
  | .hbm, ⟨10, _⟩ => ⟨S_, .f32⟩
  | .hbm, ⟨11, _⟩ => ⟨S147456000, .f32⟩
  | .hbm, ⟨12, _⟩ => ⟨S_, .i32⟩
  | .hbm, ⟨13, _⟩ => ⟨S8388608, .i32⟩
  | .hbm, ⟨14, _⟩ => ⟨S8388608, .i1⟩
  | .hbm, ⟨15, _⟩ => ⟨S_, .i32⟩
  | .hbm, ⟨16, _⟩ => ⟨S8388608, .i32⟩
  | .hbm, ⟨17, _⟩ => ⟨S8388608, .i32⟩
  | .hbm, ⟨18, _⟩ => ⟨S8388608, .i32⟩
  | .hbm, ⟨19, _⟩ => ⟨S8388608x1, .i32⟩
  | .hbm, ⟨20, _⟩ => ⟨S147456000, .f32⟩
  | .hbm, ⟨21, _⟩ => ⟨S8x20x720x1280, .f32⟩
  | .local _ .vmem, ⟨0, _⟩ => ⟨S1x32x16384, .f32⟩
  | .local _ .vmem, ⟨1, _⟩ => ⟨S1x32x16384, .f32⟩
  | .local _ .vmem, ⟨2, _⟩ => ⟨S1x16x16384, .i32⟩
  | .local _ .vmem, ⟨3, _⟩ => ⟨S1x16x16384, .i32⟩
  | .local _ .vmem, ⟨4, _⟩ => ⟨S1x16x16384, .f32⟩
  | .local _ .vmem, ⟨5, _⟩ => ⟨S1x16x16384, .f32⟩
  | .local _ .smem, ⟨0, _⟩ => ⟨S8, .i32⟩
  | _, _ => ⟨S8x500000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v46 : Index := Scalar.indexCast arg0
  ![v46.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8x500000x4_S8x4x500000_0_2_1 : S8x500000x4.Transposes [0, 2, 1] S8x4x500000
  pads_S8x4x500000_S8x4x524288_000_000_0242880 : S8x4x500000.Pads (![0, 0, 0] : Fin 3 → Nat) ![0, 0, 24288] ![0, 0, 0] S8x4x524288
  h_S_ : 0 < S_.numel
  shapeCasts_S8x4x524288_S8x32x65536 : S8x4x524288.ShapeCasts S8x32x65536
  inb_S1x32x16384_S1x32x16384_0_0_0 : ∀ a, (![0, 0, 0] : Fin 3 → Nat) a + S1x32x16384.size a ≤ S1x32x16384.size a
  h_S1x32x16384 : 0 < S1x32x16384.numel
  shapeCasts_S1x32x16384_S32x16384 : S1x32x16384.ShapeCasts S32x16384
  slices_S32x16384_o0_0_S8x16384 : S32x16384.Slices ![0, 0] S8x16384
  slices_S32x16384_o8_0_S8x16384 : S32x16384.Slices ![8, 0] S8x16384
  slices_S32x16384_o16_0_S8x16384 : S32x16384.Slices ![16, 0] S8x16384
  slices_S32x16384_o24_0_S8x16384 : S32x16384.Slices ![24, 0] S8x16384
  iota_S8x16384_d0_w32 : S8x16384.Iotas .tc 32 [0]
  iota_S8x16384_d1_w32 : S8x16384.Iotas .tc 32 [1]
  numel1_S1 : S1.numel = 1
  inb_S1x16x16384_S1x8x16384_0_0_0 : ∀ a, (![0, 0, 0] : Fin 3 → Nat) a + S1x8x16384.size a ≤ S1x16x16384.size a
  h_S1x8x16384 : 0 < S1x8x16384.numel
  shapeCasts_S1x8x16384_S8x16384 : S1x8x16384.ShapeCasts S8x16384
  shapeCasts_S8x16384_S1x8x16384 : S8x16384.ShapeCasts S1x8x16384
  inb_S1x16x16384_S1x8x16384_0_8_0 : ∀ a, (![0, 8, 0] : Fin 3 → Nat) a + S1x8x16384.size a ≤ S1x16x16384.size a
  shapeCasts_S8x16x65536_S8388608 : S8x16x65536.ShapeCasts S8388608
  bcast_S_S147456000 : S_.BroadcastsInDim S147456000 (![] : Fin 0 → Fin S147456000.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S147456000_S8x20x720x1280 : S147456000.ShapeCasts S8x20x720x1280
  scatter_S147456000_S8388608x1_S8388608_n_0_0_1_wf : ScatterDims.WF S147456000 S8388608x1 S8388608 [] [0] [0] 1
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x16384.size a ≤ S8x32x65536.size a
  hwx0_0 : ∀ i : grid0.Coords, EltTy.bits .f32 = 32 ∨ (Rect.block (s := S8x32x65536) S1x32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x16384.size a ≤ S8x16x65536.size a
  hwx0_1 : ∀ i : grid0.Coords, EltTy.bits .i32 = 32 ∨ (Rect.block (s := S8x16x65536) S1x16x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x16384.size a ≤ S8x16x65536.size a
  hwx0_2 : ∀ i : grid0.Coords, EltTy.bits .f32 = 32 ∨ (Rect.block (s := S8x16x65536) S1x16x16384.size (cc0_transform_2 i) (hinb0_2 i)).WholeWords (EltTy.packing .f32)

variable [Facts₀]

def scatter_S147456000_S8388608x1_S8388608_n_0_0_1 : ScatterDims S147456000 S8388608x1 S8388608 where
  updateWindowDims := []
  insertedWindowDims := [0]
  scatterDimsToOperandDims := [0]
  indexVectorDim := 1
  wf := scatter_S147456000_S8388608x1_S8388608_n_0_0_1_wf

abbrev spec0_0 : Pipeline.WinSpec sig grid0.rank :=
  Pipeline.WinSpec.ofSpec (Memref.whole main_v2) S1x32x16384.size reads0_0 false false 2 stage0_0 sem0_0 nbuf0_0 hstage0_0

abbrev spec0_1 : Pipeline.WinSpec sig grid0.rank :=
  Pipeline.WinSpec.ofSpec (Memref.whole main_v3_0) S1x16x16384.size reads0_1 true false 2 stage0_1 sem0_1 nbuf0_1 hstage0_1

abbrev spec0_2 : Pipeline.WinSpec sig grid0.rank :=
  Pipeline.WinSpec.ofSpec (Memref.whole main_v3_1) S1x16x16384.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x500000x4 : Shape := ⟨3, ![8, 500000, 4]⟩
abbrev S8 : Shape := ⟨1, ![8]⟩
abbrev S8x500000x1 : Shape := ⟨3, ![8, 500000, 1]⟩
abbrev S8x500000 : Shape := ⟨2, ![8, 500000]⟩
abbrev S_ : Shape := ⟨0, ![]⟩
abbrev S500000 : Shape := ⟨1, ![500000]⟩
abbrev S1x500000 : Shape := ⟨2, ![1, 500000]⟩
abbrev S8x1 : Shape := ⟨2, ![8, 1]⟩
abbrev S147456000 : Shape := ⟨1, ![147456000]⟩
abbrev S4000000 : Shape := ⟨1, ![4000000]⟩
abbrev S4000000x1 : Shape := ⟨2, ![4000000, 1]⟩
abbrev S8x1280x720x20 : Shape := ⟨4, ![8, 1280, 720, 20]⟩
abbrev S8x20x720x1280 : Shape := ⟨4, ![8, 20, 720, 1280]⟩

abbrev nBuf : Space → Nat
  | .hbm => 121
  | .vmem => 0
  | .smem => 0
  | _ => 0

abbrev bufTy : (tb : Table) → Fin (tcTables nBuf tb) → BufTy
  | .hbm, ⟨0, _⟩ => ⟨S8x500000x4, .f32⟩
  | .hbm, ⟨1, _⟩ => ⟨S8, .i32⟩
  | .hbm, ⟨2, _⟩ => ⟨S8x500000x1, .f32⟩
  | .hbm, ⟨3, _⟩ => ⟨S8x500000, .f32⟩
  | .hbm, ⟨4, _⟩ => ⟨S8x500000, .i32⟩
  | .hbm, ⟨5, _⟩ => ⟨S8x500000x1, .f32⟩
  | .hbm, ⟨6, _⟩ => ⟨S8x500000, .f32⟩
  | .hbm, ⟨7, _⟩ => ⟨S8x500000, .i32⟩
  | .hbm, ⟨8, _⟩ => ⟨S8x500000x1, .f32⟩
  | .hbm, ⟨9, _⟩ => ⟨S8x500000, .f32⟩
  | .hbm, ⟨10, _⟩ => ⟨S8x500000x1, .f32⟩
  | .hbm, ⟨11, _⟩ => ⟨S8x500000, .f32⟩
  | .hbm, ⟨12, _⟩ => ⟨S_, .f32⟩
  | .hbm, ⟨13, _⟩ => ⟨S8x500000, .f32⟩
  | .hbm, ⟨14, _⟩ => ⟨S8x500000, .f32⟩
  | .hbm, ⟨15, _⟩ => ⟨S_, .f32⟩
  | .hbm, ⟨16, _⟩ => ⟨S8x500000, .f32⟩
  | .hbm, ⟨17, _⟩ => ⟨S8x500000, .f32⟩
  | .hbm, ⟨18, _⟩ => ⟨S500000, .i32⟩
  | .hbm, ⟨19, _⟩ => ⟨S1x500000, .i32⟩
  | .hbm, ⟨20, _⟩ => ⟨S8x1, .i32⟩
  | .hbm, ⟨21, _⟩ => ⟨S8x500000, .i32⟩
  | .hbm, ⟨22, _⟩ => ⟨S8x500000, .i32⟩
  | .hbm, ⟨23, _⟩ => ⟨S8x500000, .i1⟩
  | .hbm, ⟨24, _⟩ => ⟨S_, .f32⟩
  | .hbm, ⟨25, _⟩ => ⟨S8x500000, .f32⟩
  | .hbm, ⟨26, _⟩ => ⟨S8x500000, .f32⟩
  | .hbm, ⟨27, _⟩ => ⟨S8x500000, .f32⟩
  | .hbm, ⟨28, _⟩ => ⟨S8x500000, .i32⟩
  | .hbm, ⟨29, _⟩ => ⟨S8x500000, .f32⟩
  | .hbm, ⟨30, _⟩ => ⟨S8x500000, .f32⟩
  | .hbm, ⟨31, _⟩ => ⟨S_, .f32⟩
  | .hbm, ⟨32, _⟩ => ⟨S8x500000, .f32⟩
  | .hbm, ⟨33, _⟩ => ⟨S8x500000, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S8x500000, .i32⟩
  | .hbm, ⟨38, _⟩ => ⟨S8x500000, .i32⟩
  | .hbm, ⟨39, _⟩ => ⟨S_, .i32⟩
  | .hbm, ⟨40, _⟩ => ⟨S8x500000, .i32⟩
  | .hbm, ⟨41, _⟩ => ⟨S8x500000, .i32⟩
  | .hbm, ⟨42, _⟩ => ⟨S_, .i32⟩
  | .hbm, ⟨43, _⟩ => ⟨S8x500000, .i32⟩
  | .hbm, ⟨44, _⟩ => ⟨S8x500000, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S8x500000, .i32⟩
  | .hbm, ⟨49, _⟩ => ⟨S8x500000, .i32⟩
  | .hbm, ⟨50, _⟩ => ⟨S_, .i32⟩
  | .hbm, ⟨51, _⟩ => ⟨S8x500000, .i32⟩
  | .hbm, ⟨52, _⟩ => ⟨S8x500000, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S8x500000, .i32⟩
  | .hbm, ⟨57, _⟩ => ⟨S8x500000, .i32⟩
  | .hbm, ⟨58, _⟩ => ⟨S_, .i32⟩
  | .hbm, ⟨59, _⟩ => ⟨S8x500000, .i32⟩
  | .hbm, ⟨60, _⟩ => ⟨S8x500000, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S8x500000, .i32⟩
  | .hbm, ⟨65, _⟩ => ⟨S8x500000, .i32⟩
  | .hbm, ⟨66, _⟩ => ⟨S_, .i32⟩
  | .hbm, ⟨67, _⟩ => ⟨S8x500000, .i32⟩
  | .hbm, ⟨68, _⟩ => ⟨S8x500000, .i32⟩
  | .hbm, ⟨69, _⟩ => ⟨S8, .i32⟩
  | .hbm, ⟨70, _⟩ => ⟨S8x1, .i32⟩
  | .hbm, ⟨71, _⟩ => ⟨S_, .i32⟩
  | .hbm, ⟨72, _⟩ => ⟨S8x1, .i32⟩
  | .hbm, ⟨73, _⟩ => ⟨S8x1, .i32⟩
  | .hbm, ⟨74, _⟩ => ⟨S8x500000, .i32⟩
  | .hbm, ⟨75, _⟩ => ⟨S8x500000, .i32⟩
  | .hbm, ⟨76, _⟩ => ⟨S_, .i32⟩
  | .hbm, ⟨77, _⟩ => ⟨S8x500000, .i32⟩
  | .hbm, ⟨78, _⟩ => ⟨S8x500000, .i32⟩
  | .hbm, ⟨79, _⟩ => ⟨S8x500000, .i32⟩
  | .hbm, ⟨80, _⟩ => ⟨S_, .i32⟩
  | .hbm, ⟨81, _⟩ => ⟨S8x500000, .i32⟩
  | .hbm, ⟨82, _⟩ => ⟨S8x500000, .i32⟩
  | .hbm, ⟨83, _⟩ => ⟨S8x500000, .f32⟩
  | .hbm, ⟨84, _⟩ => ⟨S_, .f32⟩
  | .hbm, ⟨85, _⟩ => ⟨S_, .f32⟩
  | .hbm, ⟨86, _⟩ => ⟨S8x500000, .f32⟩
  | .hbm, ⟨87, _⟩ => ⟨S8x500000, .f32⟩
  | .hbm, ⟨88, _⟩ => ⟨S8x500000, .f32⟩
  | .hbm, ⟨89, _⟩ => ⟨S_, .f32⟩
  | .hbm, ⟨90, _⟩ => ⟨S_, .f32⟩
  | .hbm, ⟨91, _⟩ => ⟨S8x500000, .f32⟩
  | .hbm, ⟨92, _⟩ => ⟨S8x500000, .f32⟩
  | .hbm, ⟨93, _⟩ => ⟨S_, .f32⟩
  | .hbm, ⟨94, _⟩ => ⟨S147456000, .f32⟩
  | .hbm, ⟨95, _⟩ => ⟨S8x500000, .i32⟩
  | .hbm, ⟨96, _⟩ => ⟨S4000000, .i32⟩
  | .hbm, ⟨97, _⟩ => ⟨S4000000, .f32⟩
  | .hbm, ⟨98, _⟩ => ⟨S_, .i32⟩
  | .hbm, ⟨99, _⟩ => ⟨S4000000, .i32⟩
  | .hbm, ⟨100, _⟩ => ⟨S4000000, .i1⟩
  | .hbm, ⟨101, _⟩ => ⟨S_, .i32⟩
  | .hbm, ⟨102, _⟩ => ⟨S4000000, .i32⟩
  | .hbm, ⟨103, _⟩ => ⟨S4000000, .i32⟩
  | .hbm, ⟨104, _⟩ => ⟨S4000000, .i32⟩
  | .hbm, ⟨105, _⟩ => ⟨S4000000x1, .i32⟩
  | .hbm, ⟨106, _⟩ => ⟨S147456000, .f32⟩
  | .hbm, ⟨107, _⟩ => ⟨S8x500000, .i32⟩
  | .hbm, ⟨108, _⟩ => ⟨S4000000, .i32⟩
  | .hbm, ⟨109, _⟩ => ⟨S4000000, .f32⟩
  | .hbm, ⟨110, _⟩ => ⟨S_, .i32⟩
  | .hbm, ⟨111, _⟩ => ⟨S4000000, .i32⟩
  | .hbm, ⟨112, _⟩ => ⟨S4000000, .i1⟩
  | .hbm, ⟨113, _⟩ => ⟨S_, .i32⟩
  | .hbm, ⟨114, _⟩ => ⟨S4000000, .i32⟩
  | .hbm, ⟨115, _⟩ => ⟨S4000000, .i32⟩
  | .hbm, ⟨116, _⟩ => ⟨S4000000, .i32⟩
  | .hbm, ⟨117, _⟩ => ⟨S4000000x1, .i32⟩
  | .hbm, ⟨118, _⟩ => ⟨S147456000, .f32⟩
  | .hbm, ⟨119, _⟩ => ⟨S8x1280x720x20, .f32⟩
  | .hbm, ⟨120, _⟩ => ⟨S8x20x720x1280, .f32⟩
  | _, _ => ⟨S8x500000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_c_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_c_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v31 : Ref sig .tc := ⟨.hbm, 52, rfl⟩
abbrev main_c_7 : Ref sig .tc := ⟨.hbm, 53, rfl⟩
abbrev main_c_8 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v32 : Ref sig .tc := ⟨.hbm, 60, rfl⟩
abbrev main_c_9 : Ref sig .tc := ⟨.hbm, 61, rfl⟩
abbrev main_c_10 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_11 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_12 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c_13 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_14 : Ref sig .tc := ⟨.hbm, 84, rfl⟩
abbrev main_call4_v0 : Ref sig .tc := ⟨.hbm, 85, rfl⟩
abbrev main_call4_v1 : Ref sig .tc := ⟨.hbm, 86, rfl⟩
abbrev main_v46 : Ref sig .tc := ⟨.hbm, 87, rfl⟩
abbrev main_v47 : Ref sig .tc := ⟨.hbm, 88, rfl⟩
abbrev main_cst_15 : Ref sig .tc := ⟨.hbm, 89, rfl⟩
abbrev main_call5_v0 : Ref sig .tc := ⟨.hbm, 90, rfl⟩
abbrev main_call5_v1 : Ref sig .tc := ⟨.hbm, 91, rfl⟩
abbrev main_v48 : Ref sig .tc := ⟨.hbm, 92, rfl⟩
abbrev main_cst_16 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_c_17 : Ref sig .tc := ⟨.hbm, 98, rfl⟩
abbrev main_v53 : Ref sig .tc := ⟨.hbm, 99, rfl⟩
abbrev main_v54 : Ref sig .tc := ⟨.hbm, 100, rfl⟩
abbrev main_c_18 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_c_19 : Ref sig .tc := ⟨.hbm, 110, rfl⟩
abbrev main_v63 : Ref sig .tc := ⟨.hbm, 111, rfl⟩
abbrev main_v64 : Ref sig .tc := ⟨.hbm, 112, rfl⟩
abbrev main_c_20 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩

abbrev nD : Nat := 1
abbrev τ : Topo := Topo.v7x

variable {F : FTy → Type} [FloatOps F]

class Facts₀ : Prop where
  slices_S8x500000x4_S8x500000x1_0_0_0 : S8x500000x4.Slices ![0, 0, 0] S8x500000x1
  shapeCasts_S8x500000x1_S8x500000 : S8x500000x1.ShapeCasts S8x500000
  slices_S8x500000x4_S8x500000x1_0_0_1 : S8x500000x4.Slices ![0, 0, 1] S8x500000x1
  slices_S8x500000x4_S8x500000x1_0_0_2 : S8x500000x4.Slices ![0, 0, 2] S8x500000x1
  slices_S8x500000x4_S8x500000x1_0_0_3 : S8x500000x4.Slices ![0, 0, 3] S8x500000x1
  bcast_S_S8x500000 : S_.BroadcastsInDim S8x500000 (![] : Fin 0 → Fin S8x500000.rank)
  bcast_S500000_S1x500000_1 : S500000.BroadcastsInDim S1x500000 (![1] : Fin 1 → Fin S1x500000.rank)
  bcast_S8_S8x1_0 : S8.BroadcastsInDim S8x1 (![0] : Fin 1 → Fin S8x1.rank)
  bcast_S1x500000_S8x500000_0_1 : S1x500000.BroadcastsInDim S8x500000 (![0, 1] : Fin 2 → Fin S8x500000.rank)
  bcast_S8x1_S8x500000_0_1 : S8x1.BroadcastsInDim S8x500000 (![0, 1] : Fin 2 → Fin S8x500000.rank)
  bcast_S_S8x1 : S_.BroadcastsInDim S8x1 (![] : Fin 0 → Fin S8x1.rank)
  bcast_S_S147456000 : S_.BroadcastsInDim S147456000 (![] : Fin 0 → Fin S147456000.rank)
  shapeCasts_S8x500000_S4000000 : S8x500000.ShapeCasts S4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  shapeCasts_S147456000_S8x1280x720x20 : S147456000.ShapeCasts S8x1280x720x20
  transposes_S8x1280x720x20_S8x20x720x1280_0_3_2_1 : S8x1280x720x20.Transposes [0, 3, 2, 1] S8x20x720x1280
  scatter_S147456000_S4000000x1_S4000000_n_0_0_1_wf : ScatterDims.WF S147456000 S4000000x1 S4000000 [] [0] [0] 1

variable [Facts₀]

def scatter_S147456000_S4000000x1_S4000000_n_0_0_1 : ScatterDims S147456000 S4000000x1 S4000000 where
  updateWindowDims := []
  insertedWindowDims := [0]
  scatterDimsToOperandDims := [0]
  indexVectorDim := 1
  wf := scatter_S147456000_S4000000x1_S4000000_n_0_0_1_wf

class Facts : Prop extends Facts₀ where

variable [Facts]
-- ==== Proof.Spec.lean ====
/-
  The mathematics of the event-to-voxel-grid accumulation, with no program in sight.

  An event is four extended reals (x, y, t, p). Its pixel is (clip ⌊x⌋ to [0, 1279], clip ⌊y⌋ to [0, 719]), its
  continuous time bin is tb = 19·t, its two taps are the bins k0 = ⌊tb⌋ and k0 + 1, each clipped to [0, 19], with the
  weights w0 = 1 - (tb - k0) and w1 = tb - k0, and its polarity is 2·p - 1. Event n of batch b counts when n is below
  that batch's event count (a signed word compare). The voxel grid's cell (b, k, y, x) is the sum, over the two taps
  and over the counted events of batch b whose tap lands on (k, y, x), of polarity times the tap's weight.
  `grid` states exactly that, as one function of the event array and the counts, cell by cell.
-/
import Idealize.ShloMosaic.PureOps.Ideal
import Idealize.ShloMosaic.Lib.ValueIdx

noncomputable section

namespace Cert.Voxel

open Idealize.ShloMosaic Idealize.ShloMosaic.ValueIdx

/-- The event array [8, 500000, 4], the counts [8] and the grid [8, 20, 720, 1280], as literal shapes. -/
abbrev SEv : Shape := ⟨3, ![8, 500000, 4]⟩
abbrev SCnt : Shape := ⟨1, ![8]⟩
abbrev SGrid : Shape := ⟨4, ![8, 20, 720, 1280]⟩

/-- The float words both programs carry: 2, 1, 19 and 0. -/
def two : EReal := Ideal.ofBits .f32 0x40000000#32
def one : EReal := Ideal.ofBits .f32 0x3F800000#32
def c19 : EReal := Ideal.ofBits .f32 0x41980000#32
def zero : EReal := Ideal.ofBits .f32 0x00000000#32

/-- A word clipped to [0, hi]: the signed maximum with 0, then the signed minimum with `hi`. -/
def clipW (hi v : BitVec 32) : BitVec 32 := IntOp.minsi hi (IntOp.maxsi 0#32 v)

/-- The pixel column and row of an event. -/
def xcOf (x : EReal) : BitVec 32 := clipW 1279#32 (Ideal.fptosi 32 x)
def ycOf (y : EReal) : BitVec 32 := clipW 719#32 (Ideal.fptosi 32 y)
/-- The continuous bin coordinate 19·t, its integer part as a word, and the two clipped taps. -/
def tbOf (t : EReal) : EReal := t * c19
def k0Of (t : EReal) : BitVec 32 := Ideal.fptosi 32 (Ideal.liftRound Int.floor (tbOf t))
def k0cOf (t : EReal) : BitVec 32 := clipW 19#32 (k0Of t)
def k1cOf (t : EReal) : BitVec 32 := clipW 19#32 (IntOp.addi (k0Of t) 1#32)
/-- The two interpolation weights and the polarity. -/
def w1Of (t : EReal) : EReal := tbOf t - (((k0Of t).toInt : ℝ) : EReal)
def w0Of (t : EReal) : EReal := one - w1Of t
def polOf (p : EReal) : EReal := p * two - one

/-- Tap 0 or tap 1: its bin and its weight. -/
def kcOf (tap : Fin 2) (t : EReal) : BitVec 32 := if tap = 0 then k0cOf t else k1cOf t
def wOf (tap : Fin 2) (t : EReal) : EReal := if tap = 0 then w0Of t else w1Of t

/-- What a tap contributes: polarity times weight where the event counts (`valid` is the one-bit result of the
    compare), the word 0 otherwise. -/
def valOf (tap : Fin 2) (valid : BitVec 1) (t p : EReal) : EReal :=
  Scalar.select valid (polOf p * wOf tap t) zero

/-- Event `n` of a batch counts when `n`, as a word, is below the batch's count as signed words. -/
def validOf (n : Nat) (cnt : BitVec 32) : BitVec 1 := IntOp.cmpi .slt (BitVec.ofNat 32 n) cnt

/-- Tap `tap` of event (b, n) lands on cell `c`. -/
def lands (ev : SEv.Idx → EReal) (tap : Fin 2) (b : Fin 8) (n : Fin 500000) (c : SGrid.Idx) : Prop :=
  b.val = (c 0).val ∧ (kcOf tap (ev (ix3 b n 2))).toNat = (c 1).val
    ∧ (ycOf (ev (ix3 b n 1))).toNat = (c 2).val ∧ (xcOf (ev (ix3 b n 0))).toNat = (c 3).val

instance (ev : SEv.Idx → EReal) (tap : Fin 2) (b : Fin 8) (n : Fin 500000) (c : SGrid.Idx) :
    Decidable (lands ev tap b n c) := by unfold lands; infer_instance

/-- What tap `tap` of event (b, n) adds to the grid. -/
def contrib (ev : SEv.Idx → EReal) (cnt : SCnt.Idx → BitVec 32) (tap : Fin 2) (b : Fin 8) (n : Fin 500000) : EReal :=
  valOf tap (validOf n.val (cnt (ix1 b))) (ev (ix3 b n 2)) (ev (ix3 b n 3))

/-- THE VOXEL GRID: cell `c` is the sum over taps and events of the contributions that land on it. -/
def grid (ev : SEv.Idx → EReal) (cnt : SCnt.Idx → BitVec 32) : SGrid.Idx → EReal := fun c =>
  ∑ tap : Fin 2, ∑ b : Fin 8, ∑ n : Fin 500000, if lands ev tap b n c then contrib ev cnt tap b n else 0

end Cert.Voxel

end
-- ==== Proof.PreFacts.lean ====
/-
  What the precondition says of the counts: it is the conjunction of "every event entry is finite" and "every count is
  at most 500000" (a signed word compare, reduced by `and` over the eight batches); where it is 1, each count is at
  most 500000 as a signed word.
-/
import proofs.«407325_j25658134626635_3_alg».proof.Pre_finite_inputs
import proofs.«407325_j25658134626635_3_alg».proof.Proof.Spec
import Idealize.ShloMosaic.Lib.ReduceAll

noncomputable section

namespace Cert.Voxel

open Idealize.ShloMosaic Idealize.ShloMosaic.ValueIdx

instance : Subsingleton Cert.Pre_finite_inputs.S_.Idx := ⟨fun _ _ => funext fun d => d.elim0⟩

/-- Where the precondition holds, every batch's count is at most 500000. -/
theorem counts_le [Cert.Pre_finite_inputs.Facts] (ev : FVec Ideal Cert.Pre_finite_inputs.S8x500000x4 .f32)
    (cnt : IVec Cert.Pre_finite_inputs.S8 32)
    (h : Cert.Pre_finite_inputs.fn (F := Ideal) ev cnt = fun _ => 1#1) (b : Fin 8) :
    (cnt (ix1 b)).toInt ≤ 500000 := by
  have h0 := congrFun h ix0
  dsimp only [Cert.Pre_finite_inputs.fn] at h0
  have h1 := (IntOp.andi_eq_one.1 h0).2
  have h2 := Host.reduce_andi_all _ _ _ _ ix0 h1 (ix1 b)
  have h3 := IntOp.cmpi_sle.1 h2
  exact h3

end Cert.Voxel

end
-- ==== Proof.Cells.lean ====
/-
  Flat cell indices as 32-bit words.

  The kernel numbers cell (b, k, y, x) of the [8, 20, 720, 1280] grid in that order, b·18432000 + k·921600 + (y·1280 + x);
  the reference numbers the same cell of its [8, 1280, 720, 20] grid, ((b·1280 + x)·720 + y)·20 + k, and transposes
  afterwards. Both are computed in wrapping 32-bit arithmetic from clipped words, so neither wraps, both are
  non-negative as signed words (the wrap-around of a negative index that `.at[]` adds leaves them alone), and each
  determines its four digits: a word equals a cell's number exactly when the digits are the cell's coordinates.
  Also here: the position word the kernel builds from a grid step, a sublane row and a lane, and the fact that a
  position at or past 500000 is never below a count that is at most 500000.
-/
import proofs.«407325_j25658134626635_3_alg».proof.Proof.Spec

noncomputable section

namespace Cert.Voxel

open Idealize.ShloMosaic Idealize.ShloMosaic.ValueIdx

/-- The kernel's flat index of (b, kc, yc, xc), in its own association. -/
def kIdx (b : Fin 8) (kc yc xc : BitVec 32) : BitVec 32 :=
  IntOp.addi (IntOp.addi (IntOp.muli (BitVec.ofNat 32 b.val) 18432000#32) (IntOp.muli kc 921600#32))
    (IntOp.addi (IntOp.muli yc 1280#32) xc)

/-- The reference's flat index of (b, xc, yc, kc), in its own association. -/
def rIdx (b : Fin 8) (kc yc xc : BitVec 32) : BitVec 32 :=
  IntOp.addi (IntOp.muli (IntOp.addi (IntOp.muli (IntOp.addi (IntOp.muli (BitVec.ofNat 32 b.val) 1280#32) xc) 720#32) yc) 20#32) kc

/-- A negative index wrapped around the 147456000 cells, any other left alone. -/
def normW (v : BitVec 32) : BitVec 32 := Scalar.select (IntOp.cmpi .slt v 0#32) (IntOp.addi v 147456000#32) v

/-- Cell `c`'s number in the kernel's order and in the reference's (before its transpose). -/
def flatK (c : SGrid.Idx) : Nat := (((c 0).val * 20 + (c 1).val) * 720 + (c 2).val) * 1280 + (c 3).val
def flatR (c : SGrid.Idx) : Nat := (((c 0).val * 1280 + (c 3).val) * 720 + (c 2).val) * 20 + (c 1).val

/-- A word below 2^31 is non-negative as a signed word: its signed value is its natural number. -/
private theorem toInt_of_lt (v : BitVec 32) (h : v.toNat < 2147483648) : v.toInt = (v.toNat : Int) := by
  apply BitVec.toInt_eq_toNat_of_lt
  omega

/-- The wrap-around leaves a word below 2^31 alone. -/
private theorem normW_of_lt (v : BitVec 32) (h : v.toNat < 2147483648) : normW v = v := by
  have hs : v.slt 0#32 = false := by
    have e := toInt_of_lt v h
    simp only [BitVec.slt, BitVec.toInt_zero, decide_eq_false_iff_not]
    omega
  unfold normW Scalar.select IntOp.cmpi
  simp [hs]

/-- A product by a literal that stays below 2^32 does not wrap. -/
private theorem mul_toNat (a : BitVec 32) (m B : Nat) (ha : a.toNat ≤ B) (hm : B * m < 4294967296)
    (hm' : m < 4294967296) : (a * BitVec.ofNat 32 m).toNat = a.toNat * m := by
  have h1 : a.toNat * m ≤ B * m := Nat.mul_le_mul_right m ha
  rw [BitVec.toNat_mul, BitVec.toNat_ofNat, Nat.mod_eq_of_lt (show m < 2 ^ 32 by omega),
    Nat.mod_eq_of_lt (show a.toNat * m < 2 ^ 32 by omega)]

/-- A sum that stays below 2^32 does not wrap. -/
private theorem add_toNat (a b : BitVec 32) (h : a.toNat + b.toNat < 4294967296) :
    (a + b).toNat = a.toNat + b.toNat := by
  rw [BitVec.toNat_add, Nat.mod_eq_of_lt (show a.toNat + b.toNat < 2 ^ 32 by omega)]

/-- A batch number as a word is itself. -/
private theorem batch_toNat (b : Fin 8) : (BitVec.ofNat 32 b.val).toNat = b.val := by
  have hb : b.val < 8 := b.isLt
  rw [BitVec.toNat_ofNat]
  exact Nat.mod_eq_of_lt (by omega)

/-- Nothing wraps in the kernel's index: as a natural number it is the mixed-radix number of its digits. -/
private theorem kIdx_toNat (b : Fin 8) (kc yc xc : BitVec 32) (hk : kc.toNat ≤ 19) (hy : yc.toNat ≤ 719)
    (hx : xc.toNat ≤ 1279) :
    (kIdx b kc yc xc).toNat = b.val * 18432000 + kc.toNat * 921600 + (yc.toNat * 1280 + xc.toNat) := by
  have hb : b.val < 8 := b.isLt
  have eb := batch_toNat b
  have m1 : (BitVec.ofNat 32 b.val * 18432000#32).toNat = b.val * 18432000 := by
    rw [mul_toNat _ 18432000 7 (by omega) (by omega) (by omega), eb]
  have m2 : (kc * 921600#32).toNat = kc.toNat * 921600 :=
    mul_toNat _ 921600 19 hk (by omega) (by omega)
  have m3 : (yc * 1280#32).toNat = yc.toNat * 1280 :=
    mul_toNat _ 1280 719 hy (by omega) (by omega)
  have a1 : (BitVec.ofNat 32 b.val * 18432000#32 + kc * 921600#32).toNat
      = b.val * 18432000 + kc.toNat * 921600 := by
    rw [add_toNat _ _ (by omega), m1, m2]
  have a2 : (yc * 1280#32 + xc).toNat = yc.toNat * 1280 + xc.toNat := by
    rw [add_toNat _ _ (by omega), m3]
  unfold kIdx IntOp.addi IntOp.muli
  rw [add_toNat _ _ (by omega), a1, a2]

/-- Nothing wraps in the reference's index either. -/
private theorem rIdx_toNat (b : Fin 8) (kc yc xc : BitVec 32) (hk : kc.toNat ≤ 19) (hy : yc.toNat ≤ 719)
    (hx : xc.toNat ≤ 1279) :
    (rIdx b kc yc xc).toNat = ((b.val * 1280 + xc.toNat) * 720 + yc.toNat) * 20 + kc.toNat := by
  have hb : b.val < 8 := b.isLt
  have eb := batch_toNat b
  have m1 : (BitVec.ofNat 32 b.val * 1280#32).toNat = b.val * 1280 := by
    rw [mul_toNat _ 1280 7 (by omega) (by omega) (by omega), eb]
  have a1 : (BitVec.ofNat 32 b.val * 1280#32 + xc).toNat = b.val * 1280 + xc.toNat := by
    rw [add_toNat _ _ (by omega), m1]
  have m2 : ((BitVec.ofNat 32 b.val * 1280#32 + xc) * 720#32).toNat = (b.val * 1280 + xc.toNat) * 720 := by
    rw [mul_toNat _ 720 10239 (by omega) (by omega) (by omega), a1]
  have a2 : ((BitVec.ofNat 32 b.val * 1280#32 + xc) * 720#32 + yc).toNat
      = (b.val * 1280 + xc.toNat) * 720 + yc.toNat := by
    rw [add_toNat _ _ (by omega), m2]
  have m3 : (((BitVec.ofNat 32 b.val * 1280#32 + xc) * 720#32 + yc) * 20#32).toNat
      = ((b.val * 1280 + xc.toNat) * 720 + yc.toNat) * 20 := by
    rw [mul_toNat _ 20 7372799 (by omega) (by omega) (by omega), a2]
  unfold rIdx IntOp.addi IntOp.muli
  rw [add_toNat _ _ (by omega), m3]

/-- A clipped word is at most its upper end (an upper end that is non-negative as a signed word). -/
theorem clipW_toNat_le (hi v : BitVec 32) (h : hi.toNat < 2147483648) : (clipW hi v).toNat ≤ hi.toNat := by
  have e1 := BitVec.toInt_eq_toNat_cond hi
  have e2 := BitVec.toInt_eq_toNat_cond v
  have e0 : (0#32).toInt = 0 := BitVec.toInt_zero
  unfold clipW IntOp.minsi IntOp.maxsi
  simp only [BitVec.slt, decide_eq_true_eq]
  by_cases hv : v.toInt < (0#32).toInt
  · simp only [hv, if_true]
    split
    · exact Nat.le_refl _
    · exact Nat.zero_le _
  · simp only [hv, if_false]
    split
    · exact Nat.le_refl _
    · split at e1 <;> split at e2 <;> omega

/-- The kernel's index word, wrapped, is cell `c`'s number exactly when its digits are `c`'s coordinates. -/
theorem kIdx_lands (b : Fin 8) (kc yc xc : BitVec 32) (hk : kc.toNat ≤ 19) (hy : yc.toNat ≤ 719) (hx : xc.toNat ≤ 1279)
    (c : SGrid.Idx) :
    (normW (kIdx b kc yc xc)).toInt = (flatK c : Int)
      ↔ (b.val = (c 0).val ∧ kc.toNat = (c 1).val ∧ yc.toNat = (c 2).val ∧ xc.toNat = (c 3).val) := by
  have hb : b.val < 8 := b.isLt
  have h0 : (c 0).val < 8 := (c 0).isLt
  have h1 : (c 1).val < 20 := (c 1).isLt
  have h2 : (c 2).val < 720 := (c 2).isLt
  have h3 : (c 3).val < 1280 := (c 3).isLt
  have hn := kIdx_toNat b kc yc xc hk hy hx
  have hlt : (kIdx b kc yc xc).toNat < 2147483648 := by omega
  rw [normW_of_lt _ hlt, toInt_of_lt _ hlt, hn]
  unfold flatK
  constructor
  · intro h
    have g0 : b.val = (c 0).val := by omega
    have g1 : kc.toNat = (c 1).val := by omega
    have g2 : yc.toNat = (c 2).val := by omega
    have g3 : xc.toNat = (c 3).val := by omega
    exact ⟨g0, g1, g2, g3⟩
  · rintro ⟨e0, e1, e2, e3⟩
    omega

/-- The same for the reference's index word and the cell's number in the reference's order. -/
theorem rIdx_lands (b : Fin 8) (kc yc xc : BitVec 32) (hk : kc.toNat ≤ 19) (hy : yc.toNat ≤ 719) (hx : xc.toNat ≤ 1279)
    (c : SGrid.Idx) :
    (normW (rIdx b kc yc xc)).toInt = (flatR c : Int)
      ↔ (b.val = (c 0).val ∧ kc.toNat = (c 1).val ∧ yc.toNat = (c 2).val ∧ xc.toNat = (c 3).val) := by
  have hb : b.val < 8 := b.isLt
  have h0 : (c 0).val < 8 := (c 0).isLt
  have h1 : (c 1).val < 20 := (c 1).isLt
  have h2 : (c 2).val < 720 := (c 2).isLt
  have h3 : (c 3).val < 1280 := (c 3).isLt
  have hn := rIdx_toNat b kc yc xc hk hy hx
  have hlt : (rIdx b kc yc xc).toNat < 2147483648 := by omega
  rw [normW_of_lt _ hlt, toInt_of_lt _ hlt, hn]
  unfold flatR
  constructor
  · intro h
    have g0 : b.val = (c 0).val := by omega
    have g1 : kc.toNat = (c 1).val := by omega
    have g2 : yc.toNat = (c 2).val := by omega
    have g3 : xc.toNat = (c 3).val := by omega
    exact ⟨g0, g1, g2, g3⟩
  · rintro ⟨e0, e1, e2, e3⟩
    omega

/-- A position at or past 500000 (and below 2^31) is not below a count of at most 500000. -/
theorem validOf_pad (cnt : BitVec 32) (h : cnt.toInt ≤ 500000) (n : Nat) (h1 : 500000 ≤ n) (h2 : n < 524288) :
    validOf n cnt = 0#1 := by
  have hn : (BitVec.ofNat 32 n).toNat = n := by
    rw [BitVec.toNat_ofNat]
    exact Nat.mod_eq_of_lt (by omega)
  have e := toInt_of_lt (BitVec.ofNat 32 n) (by omega)
  have hs : (BitVec.ofNat 32 n).slt cnt = false := by
    simp only [BitVec.slt, decide_eq_false_iff_not]
    omega
  unfold validOf IntOp.cmpi
  simp [hs]

/-- The position word: grid step `nt` times 16384, plus sublane row `r` times 65536, plus the lane. -/
theorem pos_word (nt : Fin 4) (r : Fin 8) (l : Fin 16384) :
    IntOp.addi (IntOp.addi (IntOp.muli (BitVec.ofNat 32 nt.val) 16384#32) (IntOp.muli (BitVec.ofNat 32 r.val) 65536#32))
        (BitVec.ofNat 32 l.val)
      = BitVec.ofNat 32 (r.val * 65536 + (nt.val * 16384 + l.val)) := by
  have hnt : nt.val < 4 := nt.isLt
  have hr : r.val < 8 := r.isLt
  have hl : l.val < 16384 := l.isLt
  have ent : (BitVec.ofNat 32 nt.val).toNat = nt.val := by
    rw [BitVec.toNat_ofNat]
    exact Nat.mod_eq_of_lt (by omega)
  have er : (BitVec.ofNat 32 r.val).toNat = r.val := by
    rw [BitVec.toNat_ofNat]
    exact Nat.mod_eq_of_lt (by omega)
  have el : (BitVec.ofNat 32 l.val).toNat = l.val := by
    rw [BitVec.toNat_ofNat]
    exact Nat.mod_eq_of_lt (by omega)
  have m1 : (BitVec.ofNat 32 nt.val * 16384#32).toNat = nt.val * 16384 := by
    rw [mul_toNat _ 16384 3 (by omega) (by omega) (by omega), ent]
  have m2 : (BitVec.ofNat 32 r.val * 65536#32).toNat = r.val * 65536 := by
    rw [mul_toNat _ 65536 7 (by omega) (by omega) (by omega), er]
  have a1 : (BitVec.ofNat 32 nt.val * 16384#32 + BitVec.ofNat 32 r.val * 65536#32).toNat
      = nt.val * 16384 + r.val * 65536 := by
    rw [add_toNat _ _ (by omega), m1, m2]
  apply BitVec.eq_of_toNat_eq
  unfold IntOp.addi IntOp.muli
  rw [add_toNat _ _ (by omega), a1, el, BitVec.toNat_ofNat,
    Nat.mod_eq_of_lt (show r.val * 65536 + (nt.val * 16384 + l.val) < 2 ^ 32 by omega)]
  omega

end Cert.Voxel

end
-- ==== Proof.KernelDefs.lean ====
/-
  The kernel's side, as arrays, with no program in sight.

  The kernel receives the events channel-major, padded with zeros from 500000 to 524288 positions and packed eight
  deep: row 8·ch + r of batch b holds channel ch of positions r·65536 … r·65536 + 65535 (`packed`). From a packed
  array it produces, per batch, sixteen rows of flat cell indices and sixteen rows of values: row 8·tap + r, column
  col is tap `tap` of position r·65536 + col (`idxArr`, `valArr`). The host then adds every value into the cell
  its index names: cell `c` ends as the sum over all 8·16·65536 entries of the values whose index is c's number
  (`kernelOut`).
-/
import proofs.«407325_j25658134626635_3_alg».proof.Proof.Cells

noncomputable section

namespace Cert.Voxel

open Idealize.ShloMosaic Idealize.ShloMosaic.ValueIdx

abbrev SPk : Shape := ⟨3, ![8, 32, 65536]⟩
abbrev SOut : Shape := ⟨3, ![8, 16, 65536]⟩

/-- Row 8·ch + r of the packed array. -/
def rowOf (ch : Fin 4) (r : Fin 8) : Fin 32 := ⟨ch.val * 8 + r.val, by omega⟩
/-- An output row 8·tap + r: its tap and its sublane row. -/
def tapOf (row : Fin 16) : Fin 2 := ⟨row.val / 8, by omega⟩
def subOf (row : Fin 16) : Fin 8 := ⟨row.val % 8, by omega⟩

/-- The packed, padded, channel-major event array of `ev`. -/
def packed (ev : SEv.Idx → EReal) : SPk.Idx → EReal := fun j =>
  if h : (j 1).val % 8 * 65536 + (j 2).val < 500000 then
    ev (ix3 ⟨(j 0).val, (j 0).isLt⟩ ⟨(j 1).val % 8 * 65536 + (j 2).val, h⟩
      ⟨(j 1).val / 8, by have h1 : (j 1).val < 32 := (j 1).isLt; show (j 1).val / 8 < 4; omega⟩)
  else 0

/-- The index and the value the kernel leaves at (b, row, col), from a packed array `xp` and the counts. -/
def idxAt (xp : SPk.Idx → EReal) (b : Fin 8) (row : Fin 16) (col : Fin 65536) : BitVec 32 :=
  kIdx b (kcOf (tapOf row) (xp (ix3 b (rowOf 2 (subOf row)) col))) (ycOf (xp (ix3 b (rowOf 1 (subOf row)) col)))
    (xcOf (xp (ix3 b (rowOf 0 (subOf row)) col)))
def valAt (xp : SPk.Idx → EReal) (cnt : SCnt.Idx → BitVec 32) (b : Fin 8) (row : Fin 16) (col : Fin 65536) : EReal :=
  valOf (tapOf row) (validOf ((subOf row).val * 65536 + col.val) (cnt (ix1 b)))
    (xp (ix3 b (rowOf 2 (subOf row)) col)) (xp (ix3 b (rowOf 3 (subOf row)) col))

/-- The two output arrays of the kernel. -/
def idxArr (xp : SPk.Idx → EReal) : SOut.Idx → BitVec 32 := fun j =>
  idxAt xp ⟨(j 0).val, (j 0).isLt⟩ ⟨(j 1).val, (j 1).isLt⟩ ⟨(j 2).val, (j 2).isLt⟩
def valArr (xp : SPk.Idx → EReal) (cnt : SCnt.Idx → BitVec 32) : SOut.Idx → EReal := fun j =>
  valAt xp cnt ⟨(j 0).val, (j 0).isLt⟩ ⟨(j 1).val, (j 1).isLt⟩ ⟨(j 2).val, (j 2).isLt⟩

/-- Entry `j` of the flattened [8, 16, 65536] arrays, as an index of the arrays. -/
def unflatK (j : Fin 8388608) : SOut.Idx :=
  ix3 (⟨j.val / 1048576, by omega⟩ : Fin 8) (⟨j.val / 65536 % 16, by omega⟩ : Fin 16) (⟨j.val % 65536, by omega⟩ : Fin 65536)

/-- What the host's accumulation leaves in cell `c` from index and value arrays `I`, `W`: the word 0 plus the
    values whose (wrapped) index is c's number. -/
def scatterK (I : SOut.Idx → BitVec 32) (W : SOut.Idx → EReal) : SGrid.Idx → EReal := fun c =>
  zero + ∑ j : Fin 8388608, if (normW (I (unflatK j))).toInt = (flatK c : Int) then W (unflatK j) else 0

/-- The kernel program's result, as a function of the event array and the counts. -/
def kernelOut (ev : SEv.Idx → EReal) (cnt : SCnt.Idx → BitVec 32) : SGrid.Idx → EReal :=
  scatterK (idxArr (packed ev)) (valArr (packed ev) cnt)

end Cert.Voxel

end
-- ==== Proof.Region.lean ====
/-
  What the kernel's region leaves in its two output arrays: every grid point (b, nt) writes back rows 0…15 and
  columns nt·16384 … nt·16384 + 16383 of batch b, computed from the same columns of the packed input's 32 rows; the
  32 points' blocks tile the arrays, so each array ends as one function of the packed input (and the counts).

  In order: one element of the loaded block through the body's arithmetic (the four channels' rows, the clipped
  pixel, the bin, the two taps' weights, the polarity, the position word against the count); the two stored pieces
  of each output block as the two halves of one function of the loaded block; a window's block as a block of its
  array; what every point writes back as its block of `idxArr` / `valArr`; the cover by arithmetic (the point that
  covers (b, row, col) is (b, col / 16384)); the two arrays.
-/
import proofs.«407325_j25658134626635_3_alg».proof.Proof.Gen.KernelIdeal.Frame
import proofs.«407325_j25658134626635_3_alg».proof.Proof.KernelDefs
import Idealize.ShloMosaic.Lib.Pipeline.Value

set_option maxRecDepth 16384

noncomputable section

namespace Cert.KernelIdeal.KValue

open Idealize.ShloMosaic Idealize.ShloMosaic.TcCoe Idealize.SL.Sem Cert.KernelIdeal Cert.KernelIdeal.Gen
open Idealize.ShloMosaic.Tactic Idealize.ShloMosaic.ValueIdx Cert.Voxel

/-! ## One element of the loaded block -/

/-- Row `q`, lane `l` of the loaded block seen without its unit axis. -/
private theorem pay2_at (X : Vec Ideal S1x32x16384 .f32) (q : Fin 32) (l : Fin 16384) :
    k0_pay2 X (ix2 q l) = X (ix3 0 q l) := by
  unfold k0_pay2
  refine (shapeCast_dropUnit_apply ![32, 16384] X shapeCasts_S1x32x16384_S32x16384 (ix2 q l)).trans ?_
  refine congrArg X ?_
  funext a
  match a with
  | ⟨0, _⟩ => rfl
  | ⟨1, _⟩ => rfl
  | ⟨2, _⟩ => rfl

/-- The eight rows of channel `ch`: row `r`, lane `l` of that slice is row 8·ch + r of the block. -/
private theorem slice_at (X : Vec Ideal S1x32x16384 .f32) (ch : Fin 4) (off : Fin 2 → Nat) (hoff : off = ![ch.val * 8, 0])
    (h : S32x16384.Slices off S8x16384) (r : Fin 8) (l : Fin 16384) :
    extractStridedSlice S8x16384 off (k0_pay2 X) h (ix2 r l) = X (ix3 0 (rowOf ch r) l) := by
  subst hoff
  refine (extractStridedSlice_apply _ (k0_pay2 X) h (ix2 r l) (ix2 (rowOf ch r) l) ?_).trans (pay2_at X _ l)
  intro a
  match a with
  | ⟨0, _⟩ => rfl
  | ⟨1, _⟩ => show l.val = 0 + l.val; omega

/-- The clipped pixel column of the event at row `r`, lane `l`. -/
private theorem pay3_at (X : Vec Ideal S1x32x16384 .f32) (r : Fin 8) (l : Fin 16384) :
    k0_pay3 X (ix2 r l) = xcOf (X (ix3 0 (rowOf 0 r) l)) := by
  unfold k0_pay3 xcOf clipW
  exact congrArg (fun v => IntOp.minsi 1279#32 (IntOp.maxsi 0#32 (Ideal.fptosi 32 v))) (slice_at X 0 _ rfl _ r l)

/-- Its clipped pixel row. -/
private theorem pay4_at (X : Vec Ideal S1x32x16384 .f32) (r : Fin 8) (l : Fin 16384) :
    k0_pay4 X (ix2 r l) = ycOf (X (ix3 0 (rowOf 1 r) l)) := by
  unfold k0_pay4 ycOf clipW
  exact congrArg (fun v => IntOp.minsi 719#32 (IntOp.maxsi 0#32 (Ideal.fptosi 32 v))) (slice_at X 1 _ rfl _ r l)

/-- Its polarity. -/
private theorem pay5_at (X : Vec Ideal S1x32x16384 .f32) (r : Fin 8) (l : Fin 16384) :
    k0_pay5 X (ix2 r l) = polOf (X (ix3 0 (rowOf 3 r) l)) := by
  unfold k0_pay5 polOf
  exact congrArg (fun v : EReal => v * two - one) (slice_at X 3 _ rfl _ r l)

/-- Its continuous bin coordinate. -/
private theorem pay6_at (X : Vec Ideal S1x32x16384 .f32) (r : Fin 8) (l : Fin 16384) :
    k0_pay6 X (ix2 r l) = tbOf (X (ix3 0 (rowOf 2 r) l)) := by
  unfold k0_pay6 tbOf
  exact congrArg (fun v : EReal => v * c19) (slice_at X 2 _ rfl _ r l)

/-- The integer part of that coordinate, as a word. -/
private theorem pay7_at (X : Vec Ideal S1x32x16384 .f32) (r : Fin 8) (l : Fin 16384) :
    k0_pay7 X (ix2 r l) = k0Of (X (ix3 0 (rowOf 2 r) l)) := by
  unfold k0_pay7 k0Of
  exact congrArg (fun v : EReal => Ideal.fptosi 32 (Ideal.liftRound Int.floor v)) (pay6_at X r l)

/-- The upper tap's weight. -/
private theorem pay8_at (X : Vec Ideal S1x32x16384 .f32) (r : Fin 8) (l : Fin 16384) :
    k0_pay8 X (ix2 r l) = w1Of (X (ix3 0 (rowOf 2 r) l)) := by
  unfold k0_pay8 w1Of
  show k0_pay6 X (ix2 r l) - (((k0_pay7 X (ix2 r l)).toInt : ℝ) : EReal) = _
  rw [pay6_at, pay7_at]

/-- The lower tap's weight. -/
private theorem pay9_at (X : Vec Ideal S1x32x16384 .f32) (r : Fin 8) (l : Fin 16384) :
    k0_pay9 X (ix2 r l) = w0Of (X (ix3 0 (rowOf 2 r) l)) := by
  unfold k0_pay9 w0Of
  exact congrArg (fun v : EReal => one - v) (pay8_at X r l)

/-- The lower tap's clipped bin. -/
private theorem pay10_at (X : Vec Ideal S1x32x16384 .f32) (r : Fin 8) (l : Fin 16384) :
    k0_pay10 X (ix2 r l) = k0cOf (X (ix3 0 (rowOf 2 r) l)) := by
  unfold k0_pay10 k0cOf clipW
  exact congrArg (fun v => IntOp.minsi 19#32 (IntOp.maxsi 0#32 v)) (pay7_at X r l)

/-- The upper tap's clipped bin. -/
private theorem pay11_at (X : Vec Ideal S1x32x16384 .f32) (r : Fin 8) (l : Fin 16384) :
    k0_pay11 X (ix2 r l) = k1cOf (X (ix3 0 (rowOf 2 r) l)) := by
  unfold k0_pay11 k1cOf clipW
  exact congrArg (fun v => IntOp.minsi 19#32 (IntOp.maxsi 0#32 (IntOp.addi v 1#32))) (pay7_at X r l)

/-! ## The stored pieces at an element -/

/-- The index and the value the body computes for tap `tap` of the event at sublane row `r`, lane `l` of block `X`
    at grid step (b, nt), the batch's count word being `cw`. -/
private def idxW (b : Fin 8) (X : Vec Ideal S1x32x16384 .f32) (tap : Fin 2) (r : Fin 8) (l : Fin 16384) : BitVec 32 :=
  kIdx b (kcOf tap (X (ix3 0 (rowOf 2 r) l))) (ycOf (X (ix3 0 (rowOf 1 r) l))) (xcOf (X (ix3 0 (rowOf 0 r) l)))
private def valW (nt : Fin 4) (cw : BitVec 32) (X : Vec Ideal S1x32x16384 .f32) (tap : Fin 2) (r : Fin 8) (l : Fin 16384) : EReal :=
  valOf tap (validOf (r.val * 65536 + (nt.val * 16384 + l.val)) cw) (X (ix3 0 (rowOf 2 r) l)) (X (ix3 0 (rowOf 3 r) l))

/-- A stored piece drops back to the two-axis value it was cast from. -/
private theorem addUnit_at {α : Type} (v : S8x16384.Idx → α) (r : Fin 8) (l : Fin 16384) :
    shapeCast S1x8x16384 v shapeCasts_S8x16384_S1x8x16384 (ix3 0 r l) = v (ix2 r l) := by
  refine (shapeCast_addUnit_apply ![8, 16384] v shapeCasts_S8x16384_S1x8x16384 (ix3 0 r l)).trans ?_
  refine congrArg v ?_
  funext a
  match a with
  | ⟨0, _⟩ => rfl
  | ⟨1, _⟩ => rfl

/-- The lower tap's index store. -/
private theorem pay15_at (b : Fin 8) (X : Vec Ideal S1x32x16384 .f32) (r : Fin 8) (l : Fin 16384) :
    k0_pay15 (BitVec.ofNat 32 b.val) (k0_pay3 X) (k0_pay4 X) (k0_pay10 X) (ix3 0 r l) = idxW b X 0 r l := by
  unfold k0_pay15
  refine (addUnit_at _ r l).trans ?_
  show IntOp.addi (IntOp.addi (IntOp.muli (BitVec.ofNat 32 b.val) 18432000#32) (IntOp.muli (k0_pay10 X (ix2 r l)) 921600#32))
      (IntOp.addi (IntOp.muli (k0_pay4 X (ix2 r l)) 1280#32) (k0_pay3 X (ix2 r l))) = _
  rw [pay3_at, pay4_at, pay10_at]
  rfl

/-- The upper tap's index store. -/
private theorem pay16_at (b : Fin 8) (X : Vec Ideal S1x32x16384 .f32) (r : Fin 8) (l : Fin 16384) :
    k0_pay16 (BitVec.ofNat 32 b.val) (k0_pay3 X) (k0_pay4 X) (k0_pay11 X) (ix3 0 r l) = idxW b X 1 r l := by
  unfold k0_pay16
  refine (addUnit_at _ r l).trans ?_
  show IntOp.addi (IntOp.addi (IntOp.muli (BitVec.ofNat 32 b.val) 18432000#32) (IntOp.muli (k0_pay11 X (ix2 r l)) 921600#32))
      (IntOp.addi (IntOp.muli (k0_pay4 X (ix2 r l)) 1280#32) (k0_pay3 X (ix2 r l))) = _
  rw [pay3_at, pay4_at, pay11_at]
  rfl

/-- The validity bit: the position word built from the grid step and the two iotas, compared with the count. -/
private theorem pay12_at (nt : Fin 4) (cw : BitVec 32) (r : Fin 8) (l : Fin 16384) :
    k0_pay12 (F := Ideal) (iota .tc S8x16384 32 [0] iota_S8x16384_d0_w32) (iota .tc S8x16384 32 [1] iota_S8x16384_d1_w32)
        (Scalar.muli (BitVec.ofNat 32 nt.val) 16384#32) cw (ix2 r l)
      = validOf (r.val * 65536 + (nt.val * 16384 + l.val)) cw := by
  unfold k0_pay12 validOf
  show IntOp.cmpi .slt (IntOp.addi (IntOp.addi (IntOp.muli (BitVec.ofNat 32 nt.val) 16384#32)
      (IntOp.muli (iota .tc S8x16384 32 [0] iota_S8x16384_d0_w32 (ix2 r l)) 65536#32))
      (iota .tc S8x16384 32 [1] iota_S8x16384_d1_w32 (ix2 r l))) cw = _
  rw [iota_single_apply, iota_single_apply]
  exact congrArg (fun v => IntOp.cmpi .slt v cw) (pos_word nt r l)

/-- The lower tap's value store. -/
private theorem pay17_at (nt : Fin 4) (cw : BitVec 32) (X : Vec Ideal S1x32x16384 .f32) (r : Fin 8) (l : Fin 16384) :
    k0_pay17 (F := Ideal) (k0_pay5 X) (k0_pay9 X) (iota .tc S8x16384 32 [0] iota_S8x16384_d0_w32)
        (iota .tc S8x16384 32 [1] iota_S8x16384_d1_w32) (Scalar.muli (BitVec.ofNat 32 nt.val) 16384#32) cw (ix3 0 r l)
      = valW nt cw X 0 r l := by
  unfold k0_pay17
  refine (addUnit_at _ r l).trans ?_
  show Scalar.select (k0_pay12 (F := Ideal) (iota .tc S8x16384 32 [0] iota_S8x16384_d0_w32) (iota .tc S8x16384 32 [1] iota_S8x16384_d1_w32)
        (Scalar.muli (BitVec.ofNat 32 nt.val) 16384#32) cw (ix2 r l))
      (k0_pay5 X (ix2 r l) * k0_pay9 X (ix2 r l)) zero = _
  rw [pay12_at, pay5_at, pay9_at]
  rfl

/-- The upper tap's value store. -/
private theorem pay1_at (nt : Fin 4) (cw : BitVec 32) (X : Vec Ideal S1x32x16384 .f32) (r : Fin 8) (l : Fin 16384) :
    k0_pay1 (k0_pay14 (F := Ideal) (k0_pay5 X) (k0_pay8 X) (iota .tc S8x16384 32 [0] iota_S8x16384_d0_w32)
        (iota .tc S8x16384 32 [1] iota_S8x16384_d1_w32) (Scalar.muli (BitVec.ofNat 32 nt.val) 16384#32) cw) (ix3 0 r l)
      = valW nt cw X 1 r l := by
  unfold k0_pay1
  refine (addUnit_at _ r l).trans ?_
  unfold k0_pay14
  show Scalar.select (k0_pay12 (F := Ideal) (iota .tc S8x16384 32 [0] iota_S8x16384_d0_w32) (iota .tc S8x16384 32 [1] iota_S8x16384_d1_w32)
        (Scalar.muli (BitVec.ofNat 32 nt.val) 16384#32) cw (ix2 r l))
      (k0_pay5 X (ix2 r l) * k0_pay8 X (ix2 r l)) zero = _
  rw [pay12_at, pay5_at, pay8_at]
  rfl

/-! ## The two output blocks as one function each -/

private theorem hz3 : (![0, 0, 0] : Fin 3 → Nat) = fun _ => 0 := funext fun a => by fin_cases a <;> rfl

/-- The batch's count word as the body reads it from the table at grid step `i`. -/
private def cntW (c : Dev nD) (i : grid0.Coords) (xt0 : TbBuf0 (F := Ideal) c tbM0_0) : BitVec 32 :=
  xt0 (ix1 ⟨(i 0).val, (i 0).isLt⟩)

/-- What the body leaves in the index block and in the value block at grid step `i`, from the loaded block `X`
    (and the count word `cw`): row 8·tap + r, lane l is tap `tap` of the event at sublane row r, lane l. -/
private def blkIdx (i : grid0.Coords) (X : Vec Ideal S1x32x16384 .f32) : Vec Ideal S1x16x16384 .i32 := fun y =>
  idxW ⟨(i 0).val, (i 0).isLt⟩ X (tapOf ⟨(y 1).val, (y 1).isLt⟩) (subOf ⟨(y 1).val, (y 1).isLt⟩) ⟨(y 2).val, (y 2).isLt⟩
private def blkVal (i : grid0.Coords) (cw : BitVec 32) (X : Vec Ideal S1x32x16384 .f32) : Vec Ideal S1x16x16384 .f32 := fun y =>
  valW ⟨(i 1).val, (i 1).isLt⟩ cw X (tapOf ⟨(y 1).val, (y 1).isLt⟩) (subOf ⟨(y 1).val, (y 1).isLt⟩) ⟨(y 2).val, (y 2).isLt⟩

private theorem blkIdx_at (i : grid0.Coords) (X : Vec Ideal S1x32x16384 .f32) (y : S1x16x16384.Idx) (tap : Fin 2) (r : Fin 8)
    (l : Fin 16384) (h1 : (y 1).val = tap.val * 8 + r.val) (h2 : (y 2).val = l.val) :
    blkIdx i X y = idxW ⟨(i 0).val, (i 0).isLt⟩ X tap r l := by
  unfold blkIdx
  have e1 : tapOf ⟨(y 1).val, (y 1).isLt⟩ = tap := Fin.ext (by show (y 1).val / 8 = tap.val; have := r.isLt; omega)
  have e2 : subOf ⟨(y 1).val, (y 1).isLt⟩ = r := Fin.ext (by show (y 1).val % 8 = r.val; have := r.isLt; omega)
  have e3 : (⟨(y 2).val, (y 2).isLt⟩ : Fin 16384) = l := Fin.ext h2
  rw [e1, e2, e3]

private theorem blkVal_at (i : grid0.Coords) (cw : BitVec 32) (X : Vec Ideal S1x32x16384 .f32) (y : S1x16x16384.Idx) (tap : Fin 2)
    (r : Fin 8) (l : Fin 16384) (h1 : (y 1).val = tap.val * 8 + r.val) (h2 : (y 2).val = l.val) :
    blkVal i cw X y = valW ⟨(i 1).val, (i 1).isLt⟩ cw X tap r l := by
  unfold blkVal
  have e1 : tapOf ⟨(y 1).val, (y 1).isLt⟩ = tap := Fin.ext (by show (y 1).val / 8 = tap.val; have := r.isLt; omega)
  have e2 : subOf ⟨(y 1).val, (y 1).isLt⟩ = r := Fin.ext (by show (y 1).val % 8 = r.val; have := r.isLt; omega)
  have e3 : (⟨(y 2).val, (y 2).isLt⟩ : Fin 16384) = l := Fin.ext h2
  rw [e1, e2, e3]

/-- The scalar load of the count: the table at the batch coordinate. -/
private theorem tbl_read (c : Dev nD) (i : grid0.Coords) (xt0 : TbBuf0 (F := Ideal) c tbM0_0)
    (h : 0 < (Rect.unit (s := S8) (k0_off1 i) S1.size (k0_off1_inb i)).shape.numel) :
    View.readAt (Elt Ideal) tbM0_0.view (Rect.unit (s := S8) (k0_off1 i) S1.size (k0_off1_inb i)).toLoadRect xt0 (Shape.Idx.first h)
      = cntW c i xt0 := by
  unfold cntW
  show xt0 _ = xt0 _
  refine congrArg xt0 ?_
  funext a
  match a with
  | ⟨0, _⟩ =>
    apply Fin.ext
    show (BitVec.ofNat 32 (i 0).val).toNat + 1 * 0 = (i 0).val
    have hb : (i 0).val < 8 := (i 0).isLt
    rw [BitVec.toNat_ofNat]
    omega

/-- The index block: its two stored pieces are the two halves of one function of the loaded block. -/
private theorem out_idx (c : Dev nD) (i : grid0.Coords) (arg3 : Memref sig .tc .vmem S1x32x16384 .f32) (harg3 : arg3.IsWhole)
    (arg4 : Memref sig .tc .vmem S1x16x16384 .i32) (harg4 : arg4.IsWhole)
    (arg5 : Memref sig .tc .vmem S1x16x16384 .f32) (harg5 : arg5.IsWhole)
    (x0 : Vec Ideal S1x32x16384 .f32) (xt0 : TbBuf0 (F := Ideal) c tbM0_0) :
    out0_A_1 c i arg3 harg3 arg4 harg4 arg5 harg5 x0 xt0 = blkIdx i x0 := by
  unfold out0_A_1
  rw [View.read_writes_eq_canon _ _ _ (cover0_A_1 c i arg3 harg3 arg4 harg4 arg5 harg5 x0 xt0)]
  funext y
  refine View.canon_apply_of_pieces (blkIdx i x0) _ ?_ y (cover0_A_1 c i arg3 harg3 arg4 harg4 arg5 harg5 x0 xt0 y)
  unfold kernelRun0_A
  dsimp only
  sl_unfold_words
  simp only [View.readAt_eq_ld, harg3.read_unread, View.ld_unit_zero (S := S1x32x16384) hz3]
  intro p hp
  simp only [List.mem_cons, List.mem_nil_iff, or_false] at hp
  rcases hp with rfl | rfl
  · intro (x : S1x8x16384.Idx)
    obtain ⟨a0, r, l, rfl⟩ : ∃ (a0 : Fin 1) (r : Fin 8) (l : Fin 16384), x = ix3 a0 r l := ⟨x 0, x 1, x 2, eq_ix3 x⟩
    obtain rfl : a0 = 0 := Subsingleton.elim _ _
    refine (pay16_at ⟨(i 0).val, (i 0).isLt⟩ x0 r l).trans (blkIdx_at i x0 _ 1 r l ?_ ?_).symm
    · show 8 + 1 * r.val = 1 * 8 + r.val; omega
    · show 0 + 1 * l.val = l.val; omega
  · intro (x : S1x8x16384.Idx)
    obtain ⟨a0, r, l, rfl⟩ : ∃ (a0 : Fin 1) (r : Fin 8) (l : Fin 16384), x = ix3 a0 r l := ⟨x 0, x 1, x 2, eq_ix3 x⟩
    obtain rfl : a0 = 0 := Subsingleton.elim _ _
    refine (pay15_at ⟨(i 0).val, (i 0).isLt⟩ x0 r l).trans (blkIdx_at i x0 _ 0 r l ?_ ?_).symm
    · show 0 + 1 * r.val = 0 * 8 + r.val; omega
    · show 0 + 1 * l.val = l.val; omega

/-- The upper and the lower value piece, at any spelling `cw` of the count word. -/
private theorem piece_val_hi (c : Dev nD) (i : grid0.Coords) (x0 : Vec Ideal S1x32x16384 .f32) (xt0 : TbBuf0 (F := Ideal) c tbM0_0)
    (r : Fin 8) (l : Fin 16384) (cw : BitVec 32) (hcw : cw = cntW c i xt0) (y : S1x16x16384.Idx)
    (h1 : (y 1).val = 8 + 1 * r.val) (h2 : (y 2).val = 0 + 1 * l.val) :
    k0_pay1 (k0_pay14 (F := Ideal) (k0_pay5 x0) (k0_pay8 x0) (iota .tc S8x16384 32 [0] iota_S8x16384_d0_w32)
        (iota .tc S8x16384 32 [1] iota_S8x16384_d1_w32) (Scalar.muli (BitVec.ofNat 32 (i 1).val) 16384#32) cw) (ix3 0 r l)
      = blkVal i (cntW c i xt0) x0 y := by
  subst hcw
  refine (pay1_at ⟨(i 1).val, (i 1).isLt⟩ _ x0 r l).trans (blkVal_at i _ x0 y 1 r l ?_ ?_).symm
  · show (y 1).val = 1 * 8 + r.val; omega
  · omega

private theorem piece_val_lo (c : Dev nD) (i : grid0.Coords) (x0 : Vec Ideal S1x32x16384 .f32) (xt0 : TbBuf0 (F := Ideal) c tbM0_0)
    (r : Fin 8) (l : Fin 16384) (cw : BitVec 32) (hcw : cw = cntW c i xt0) (y : S1x16x16384.Idx)
    (h1 : (y 1).val = 0 + 1 * r.val) (h2 : (y 2).val = 0 + 1 * l.val) :
    k0_pay17 (F := Ideal) (k0_pay5 x0) (k0_pay9 x0) (iota .tc S8x16384 32 [0] iota_S8x16384_d0_w32)
        (iota .tc S8x16384 32 [1] iota_S8x16384_d1_w32) (Scalar.muli (BitVec.ofNat 32 (i 1).val) 16384#32) cw (ix3 0 r l)
      = blkVal i (cntW c i xt0) x0 y := by
  subst hcw
  refine (pay17_at ⟨(i 1).val, (i 1).isLt⟩ _ x0 r l).trans (blkVal_at i _ x0 y 0 r l ?_ ?_).symm
  · show (y 1).val = 0 * 8 + r.val; omega
  · omega

/-- The value block: likewise, with the count word the body reads from the table. -/
private theorem out_val (c : Dev nD) (i : grid0.Coords) (arg3 : Memref sig .tc .vmem S1x32x16384 .f32) (harg3 : arg3.IsWhole)
    (arg4 : Memref sig .tc .vmem S1x16x16384 .i32) (harg4 : arg4.IsWhole)
    (arg5 : Memref sig .tc .vmem S1x16x16384 .f32) (harg5 : arg5.IsWhole)
    (x0 : Vec Ideal S1x32x16384 .f32) (xt0 : TbBuf0 (F := Ideal) c tbM0_0) :
    out0_A_2 c i arg3 harg3 arg4 harg4 arg5 harg5 x0 xt0 = blkVal i (cntW c i xt0) x0 := by
  unfold out0_A_2
  rw [View.read_writes_eq_canon _ _ _ (cover0_A_2 c i arg3 harg3 arg4 harg4 arg5 harg5 x0 xt0)]
  funext y
  refine View.canon_apply_of_pieces (blkVal i (cntW c i xt0) x0) _ ?_ y (cover0_A_2 c i arg3 harg3 arg4 harg4 arg5 harg5 x0 xt0 y)
  unfold kernelRun0_A
  dsimp only
  sl_unfold_words
  simp only [View.readAt_eq_ld, harg3.read_unread, View.ld_unit_zero (S := S1x32x16384) hz3]
  intro p hp
  simp only [List.mem_cons, List.mem_nil_iff, or_false] at hp
  rcases hp with rfl | rfl
  · intro (x : S1x8x16384.Idx)
    obtain ⟨a0, r, l, rfl⟩ : ∃ (a0 : Fin 1) (r : Fin 8) (l : Fin 16384), x = ix3 a0 r l := ⟨x 0, x 1, x 2, eq_ix3 x⟩
    obtain rfl : a0 = 0 := Subsingleton.elim _ _
    exact piece_val_hi c i x0 xt0 r l _ (tbl_read c i xt0 _) _ rfl rfl
  · intro (x : S1x8x16384.Idx)
    obtain ⟨a0, r, l, rfl⟩ : ∃ (a0 : Fin 1) (r : Fin 8) (l : Fin 16384), x = ix3 a0 r l := ⟨x 0, x 1, x 2, eq_ix3 x⟩
    obtain rfl : a0 = 0 := Subsingleton.elim _ _
    exact piece_val_lo c i x0 xt0 r l _ (tbl_read c i xt0 _) _ rfl rfl

/-! ## From the blocks to the arrays -/

/-- Block (b, nt) of a packed array: its 32 rows, lanes nt·16384 … nt·16384 + 16383, of batch b. -/
private def blkOf (xp : SPk.Idx → EReal) (b : Fin 8) (nt : Fin 4) : Vec Ideal S1x32x16384 .f32 := fun j =>
  xp (ix3 b ⟨(j 1).val, (j 1).isLt⟩
    ⟨nt.val * 16384 + (j 2).val, by have h : (j 2).val < 16384 := (j 2).isLt; have := nt.isLt; omega⟩)

/-- The block's index word is the array's at the element the block's sits at. -/
private theorem idxW_blkOf (xp : SPk.Idx → EReal) (b : Fin 8) (nt : Fin 4) (tap : Fin 2) (r : Fin 8) (l : Fin 16384)
    (row : Fin 16) (col : Fin 65536) (hrow : row.val = tap.val * 8 + r.val) (hcol : col.val = nt.val * 16384 + l.val) :
    idxW b (blkOf xp b nt) tap r l = Voxel.idxAt xp b row col := by
  have e1 : tapOf row = tap := Fin.ext (by show row.val / 8 = tap.val; have := r.isLt; omega)
  have e2 : subOf row = r := Fin.ext (by show row.val % 8 = r.val; have := r.isLt; omega)
  have e3 : col = ⟨nt.val * 16384 + l.val, by have := col.isLt; omega⟩ := Fin.ext hcol
  unfold idxW Voxel.idxAt
  rw [e1, e2, e3]
  rfl

/-- The block's value is the array's at the element the block's sits at. -/
private theorem valW_blkOf (xp : SPk.Idx → EReal) (cnt : SCnt.Idx → BitVec 32) (b : Fin 8) (nt : Fin 4) (tap : Fin 2) (r : Fin 8)
    (l : Fin 16384) (row : Fin 16) (col : Fin 65536) (hrow : row.val = tap.val * 8 + r.val)
    (hcol : col.val = nt.val * 16384 + l.val) :
    valW nt (cnt (ix1 b)) (blkOf xp b nt) tap r l = valAt xp cnt b row col := by
  have e1 : tapOf row = tap := Fin.ext (by show row.val / 8 = tap.val; have := r.isLt; omega)
  have e2 : subOf row = r := Fin.ext (by show row.val % 8 = r.val; have := r.isLt; omega)
  have e3 : col = ⟨nt.val * 16384 + l.val, by have := col.isLt; omega⟩ := Fin.ext hcol
  unfold valW valAt
  rw [e1, e2, e3]
  rfl

private theorem idxAt_congr (xp : SPk.Idx → EReal) {b b' : Fin 8} {row row' : Fin 16} {col col' : Fin 65536}
    (hb : b.val = b'.val) (hr : row.val = row'.val) (hc : col.val = col'.val) :
    idxAt xp b row col = Voxel.idxAt xp b' row' col' := by
  obtain rfl := Fin.ext hb
  obtain rfl := Fin.ext hr
  obtain rfl := Fin.ext hc
  rfl

private theorem valAt_congr (xp : SPk.Idx → EReal) (cnt : SCnt.Idx → BitVec 32) {b b' : Fin 8} {row row' : Fin 16}
    {col col' : Fin 65536} (hb : b.val = b'.val) (hr : row.val = row'.val) (hc : col.val = col'.val) :
    valAt xp cnt b row col = valAt xp cnt b' row' col' := by
  obtain rfl := Fin.ext hb
  obtain rfl := Fin.ext hr
  obtain rfl := Fin.ext hc
  rfl

/-- The three index maps are one: block (b, 0, nt) at grid step (b, nt). -/
private theorem tr_word (n : Nat) (h : n < 8) : (BitVec.ofNat 32 n).toNat = n := by
  rw [BitVec.toNat_ofNat]; omega
private theorem tr0 (i : grid0.Coords) : cc0_transform_0 i = ![(i 0).val, 0, (i 1).val] := by
  have h0 : (i 0).val < 8 := (i 0).isLt
  have h1 : (i 1).val < 4 := (i 1).isLt
  show ![(BitVec.ofNat 32 (i 0).val).toNat, (0#32).toNat, (BitVec.ofNat 32 (i 1).val).toNat] = _
  rw [tr_word (i 0).val h0, tr_word (i 1).val (by omega)]
  rfl
private theorem tr1 (i : grid0.Coords) : cc0_transform_1 i = ![(i 0).val, 0, (i 1).val] := tr0 i
private theorem tr2 (i : grid0.Coords) : cc0_transform_2 i = ![(i 0).val, 0, (i 1).val] := tr0 i

/-! ## The windows' blocks, at any admissible contents of the table -/

/-- Window 0's block at point `t` is block (b, nt) of the packed array, (b, nt) the point's coordinates. -/
private theorem blk_in (a : (pcfg0 (F := Ideal)).Adm) (t : Fin (cfg0 a).N) (A : SPk.Idx → EReal) :
    ((((cfg0 a).win 0).blk t).view.read (Elt Ideal) A : Vec Ideal S1x32x16384 .f32)
      = blkOf A ⟨(grid0.coords t 0).val, (grid0.coords t 0).isLt⟩ ⟨(grid0.coords t 1).val, (grid0.coords t 1).isLt⟩ := by
  have hi : ((cfg0 a).win 0).index t = cc0_transform_0 (grid0.coords t) := rfl
  have ht := tr0 (grid0.coords t)
  refine funext fun (j : S1x32x16384.Idx) => ?_
  show A ((((cfg0 a).win 0).blk t).view.emb j) = A _
  refine congrArg A ?_
  refine funext fun (ax : Fin 3) => ?_
  apply Fin.ext
  match ax with
  | ⟨0, _⟩ =>
    show ((cfg0 a).win 0).index t (0 : Fin 3) * 1 + 1 * (j 0).val = (grid0.coords t 0).val
    have hj : (j 0).val < 1 := (j 0).isLt
    rw [hi, ht]
    show (grid0.coords t 0).val * 1 + 1 * (j 0).val = (grid0.coords t 0).val
    omega
  | ⟨1, _⟩ =>
    show ((cfg0 a).win 0).index t (1 : Fin 3) * 32 + 1 * (j 1).val = (j 1).val
    rw [hi, ht]
    show 0 * 32 + 1 * (j 1).val = (j 1).val
    omega
  | ⟨2, _⟩ =>
    show ((cfg0 a).win 0).index t (2 : Fin 3) * 16384 + 1 * (j 2).val = (grid0.coords t 1).val * 16384 + (j 2).val
    rw [hi, ht]
    show (grid0.coords t 1).val * 16384 + 1 * (j 2).val = (grid0.coords t 1).val * 16384 + (j 2).val
    omega

/-- Where an element of output window 1's block at point `t` sits in its array. -/
private theorem emb_out1 (a : (pcfg0 (F := Ideal)).Adm) (t : Fin (cfg0 a).N) (y : S1x16x16384.Idx) (e : SOut.Idx)
    (he : e = (((cfg0 a).win 1).blk t).view.emb y) :
    (e 0).val = (grid0.coords t 0).val ∧ (e 1).val = (y 1).val ∧ (e 2).val = (grid0.coords t 1).val * 16384 + (y 2).val := by
  subst he
  have hi : ((cfg0 a).win 1).index t = cc0_transform_1 (grid0.coords t) := rfl
  have ht := tr1 (grid0.coords t)
  refine ⟨?_, ?_, ?_⟩
  · show ((cfg0 a).win 1).index t (0 : Fin 3) * 1 + 1 * (y 0).val = (grid0.coords t 0).val
    have hj : (y 0).val < 1 := (y 0).isLt
    rw [hi, ht]
    show (grid0.coords t 0).val * 1 + 1 * (y 0).val = (grid0.coords t 0).val
    omega
  · show ((cfg0 a).win 1).index t (1 : Fin 3) * 16 + 1 * (y 1).val = (y 1).val
    rw [hi, ht]
    show 0 * 16 + 1 * (y 1).val = (y 1).val
    omega
  · show ((cfg0 a).win 1).index t (2 : Fin 3) * 16384 + 1 * (y 2).val = (grid0.coords t 1).val * 16384 + (y 2).val
    rw [hi, ht]
    show (grid0.coords t 1).val * 16384 + 1 * (y 2).val = (grid0.coords t 1).val * 16384 + (y 2).val
    omega

/-- The same for output window 2. -/
private theorem emb_out2 (a : (pcfg0 (F := Ideal)).Adm) (t : Fin (cfg0 a).N) (y : S1x16x16384.Idx) (e : SOut.Idx)
    (he : e = (((cfg0 a).win 2).blk t).view.emb y) :
    (e 0).val = (grid0.coords t 0).val ∧ (e 1).val = (y 1).val ∧ (e 2).val = (grid0.coords t 1).val * 16384 + (y 2).val := by
  subst he
  have hi : ((cfg0 a).win 2).index t = cc0_transform_2 (grid0.coords t) := rfl
  have ht := tr2 (grid0.coords t)
  refine ⟨?_, ?_, ?_⟩
  · show ((cfg0 a).win 2).index t (0 : Fin 3) * 1 + 1 * (y 0).val = (grid0.coords t 0).val
    have hj : (y 0).val < 1 := (y 0).isLt
    rw [hi, ht]
    show (grid0.coords t 0).val * 1 + 1 * (y 0).val = (grid0.coords t 0).val
    omega
  · show ((cfg0 a).win 2).index t (1 : Fin 3) * 16 + 1 * (y 1).val = (y 1).val
    rw [hi, ht]
    show 0 * 16 + 1 * (y 1).val = (y 1).val
    omega
  · show ((cfg0 a).win 2).index t (2 : Fin 3) * 16384 + 1 * (y 2).val = (grid0.coords t 1).val * 16384 + (y 2).val
    rw [hi, ht]
    show (grid0.coords t 1).val * 16384 + 1 * (y 2).val = (grid0.coords t 1).val * 16384 + (y 2).val
    omega

/-- WHAT A POINT WRITES BACK to the index array is its block of `idxArr` of the packed array. -/
private theorem flushed_idx_gen (a : (pcfg0 (F := Ideal)).Adm) (t : Fin (cfg0 a).N) (A : SPk.Idx → EReal) :
    ((cfg0 a).win 1).cut (grid0.coords t) (blkIdx (grid0.coords t) ((((cfg0 a).win 0).blk t).view.read (Elt Ideal) A))
      = (((cfg0 a).win 1).blk t).view.read (Elt Ideal) (idxArr A) := by
  have hb := blk_in a t A
  refine funext fun (y : S1x16x16384.Idx) => ?_
  obtain ⟨e0, e1, e2⟩ := emb_out1 a t y _ rfl
  show blkIdx (grid0.coords t) ((((cfg0 a).win 0).blk t).view.read (Elt Ideal) A) y
    = idxArr A ((((cfg0 a).win 1).blk t).view.emb y)
  rw [hb]
  unfold blkIdx idxArr
  have hy1 : (y 1).val < 16 := (y 1).isLt
  have hy2 : (y 2).val < 16384 := (y 2).isLt
  have h1 : (grid0.coords t 1).val < 4 := (grid0.coords t 1).isLt
  refine (idxW_blkOf A _ _ _ _ _ ⟨(y 1).val, hy1⟩ ⟨(grid0.coords t 1).val * 16384 + (y 2).val, by omega⟩ ?_ rfl).trans
    (idxAt_congr A e0.symm e1.symm e2.symm)
  show (y 1).val = (y 1).val / 8 * 8 + (y 1).val % 8
  omega

/-- WHAT A POINT WRITES BACK to the value array is its block of `valArr` of the packed array and the counts, `cw` any
    spelling of the batch's count. -/
private theorem flushed_val_gen (a : (pcfg0 (F := Ideal)).Adm) (t : Fin (cfg0 a).N) (A : SPk.Idx → EReal) (cnt : SCnt.Idx → BitVec 32)
    (cw : BitVec 32) (hcw : cw = cnt (ix1 ⟨(grid0.coords t 0).val, (grid0.coords t 0).isLt⟩)) :
    ((cfg0 a).win 2).cut (grid0.coords t) (blkVal (grid0.coords t) cw ((((cfg0 a).win 0).blk t).view.read (Elt Ideal) A))
      = (((cfg0 a).win 2).blk t).view.read (Elt Ideal) (valArr A cnt) := by
  subst hcw
  have hb := blk_in a t A
  refine funext fun (y : S1x16x16384.Idx) => ?_
  obtain ⟨e0, e1, e2⟩ := emb_out2 a t y _ rfl
  show blkVal (grid0.coords t) _ ((((cfg0 a).win 0).blk t).view.read (Elt Ideal) A) y
    = valArr A cnt ((((cfg0 a).win 2).blk t).view.emb y)
  rw [hb]
  unfold blkVal valArr
  have hy1 : (y 1).val < 16 := (y 1).isLt
  have hy2 : (y 2).val < 16384 := (y 2).isLt
  have h1 : (grid0.coords t 1).val < 4 := (grid0.coords t 1).isLt
  refine (valW_blkOf A cnt _ _ _ _ _ ⟨(y 1).val, hy1⟩ ⟨(grid0.coords t 1).val * 16384 + (y 2).val, by omega⟩ ?_ rfl).trans
    (valAt_congr A cnt e0.symm e1.symm e2.symm)
  show (y 1).val = (y 1).val / 8 * 8 + (y 1).val % 8
  omega

/-! ## The blocks tile the arrays -/

/-- Every (b, nt) is some point's coordinates. -/
private theorem pt_onto : ∀ (b : Fin 8) (nt : Fin 4), ∃ t : Fin grid0.N, (grid0.coords t 0).val = b.val ∧ (grid0.coords t 1).val = nt.val := by
  decide +kernel

/-- An index of an output array is in point `t`'s block iff each coordinate is in the block's range on its axis. -/
private theorem mem_blk1 (a : (pcfg0 (F := Ideal)).Adm) (t : Fin (cfg0 a).N) (i : SOut.Idx) :
    i ∈ (((cfg0 a).win 1).blk t).view.set ↔ ∀ ax : Fin 3, ((cfg0 a).win 1).index t ax * S1x16x16384.size ax ≤ (i ax).val
      ∧ (i ax).val < ((cfg0 a).win 1).index t ax * S1x16x16384.size ax + S1x16x16384.size ax := by
  show i ∈ ((View.whole main_v3_0).slice (((cfg0 a).win 1).rect t)).set ↔ _
  refine (iff_of_eq (congrArg (fun S : Finset SOut.Idx => i ∈ S) (View.set_slice_whole main_v3_0 (((cfg0 a).win 1).rect t)))).trans ?_
  exact Rect.mem_set_unit
private theorem mem_blk2 (a : (pcfg0 (F := Ideal)).Adm) (t : Fin (cfg0 a).N) (i : SOut.Idx) :
    i ∈ (((cfg0 a).win 2).blk t).view.set ↔ ∀ ax : Fin 3, ((cfg0 a).win 2).index t ax * S1x16x16384.size ax ≤ (i ax).val
      ∧ (i ax).val < ((cfg0 a).win 2).index t ax * S1x16x16384.size ax + S1x16x16384.size ax := by
  show i ∈ ((View.whole main_v3_1).slice (((cfg0 a).win 2).rect t)).set ↔ _
  refine (iff_of_eq (congrArg (fun S : Finset SOut.Idx => i ∈ S) (View.set_slice_whole main_v3_1 (((cfg0 a).win 2).rect t)))).trans ?_
  exact Rect.mem_set_unit

/-- The point that covers (b, row, col) is (b, col / 16384). -/
private theorem cover1 (a : (pcfg0 (F := Ideal)).Adm) (i : SOut.Idx) :
    ∃ t : Fin (cfg0 a).N, ((cfg0 a).win 1).flush t = true ∧ i ∈ (((cfg0 a).win 1).blk t).view.set := by
  have h0 : (i 0).val < 8 := (i 0).isLt
  have h1 : (i 1).val < 16 := (i 1).isLt
  have h2 : (i 2).val < 65536 := (i 2).isLt
  obtain ⟨t, c0, c1⟩ := pt_onto ⟨(i 0).val, h0⟩ ⟨(i 2).val / 16384, by omega⟩
  have c0' : (grid0.coords t 0).val = (i 0).val := c0
  have c1' : (grid0.coords t 1).val = (i 2).val / 16384 := c1
  refine ⟨t, flush0_1 a t, ?_⟩
  rw [mem_blk1]
  have hi : ((cfg0 a).win 1).index t = cc0_transform_1 (grid0.coords t) := rfl
  have ht := tr1 (grid0.coords t)
  intro ax
  match ax with
  | ⟨0, _⟩ =>
    show ((cfg0 a).win 1).index t (0 : Fin 3) * 1 ≤ (i 0).val ∧ (i 0).val < ((cfg0 a).win 1).index t (0 : Fin 3) * 1 + 1
    rw [hi, ht]
    show (grid0.coords t 0).val * 1 ≤ (i 0).val ∧ (i 0).val < (grid0.coords t 0).val * 1 + 1
    omega
  | ⟨1, _⟩ =>
    show ((cfg0 a).win 1).index t (1 : Fin 3) * 16 ≤ (i 1).val ∧ (i 1).val < ((cfg0 a).win 1).index t (1 : Fin 3) * 16 + 16
    rw [hi, ht]
    show 0 * 16 ≤ (i 1).val ∧ (i 1).val < 0 * 16 + 16
    omega
  | ⟨2, _⟩ =>
    show ((cfg0 a).win 1).index t (2 : Fin 3) * 16384 ≤ (i 2).val ∧ (i 2).val < ((cfg0 a).win 1).index t (2 : Fin 3) * 16384 + 16384
    rw [hi, ht]
    show (grid0.coords t 1).val * 16384 ≤ (i 2).val ∧ (i 2).val < (grid0.coords t 1).val * 16384 + 16384
    omega

private theorem cover2 (a : (pcfg0 (F := Ideal)).Adm) (i : SOut.Idx) :
    ∃ t : Fin (cfg0 a).N, ((cfg0 a).win 2).flush t = true ∧ i ∈ (((cfg0 a).win 2).blk t).view.set := by
  have h0 : (i 0).val < 8 := (i 0).isLt
  have h1 : (i 1).val < 16 := (i 1).isLt
  have h2 : (i 2).val < 65536 := (i 2).isLt
  obtain ⟨t, c0, c1⟩ := pt_onto ⟨(i 0).val, h0⟩ ⟨(i 2).val / 16384, by omega⟩
  have c0' : (grid0.coords t 0).val = (i 0).val := c0
  have c1' : (grid0.coords t 1).val = (i 2).val / 16384 := c1
  refine ⟨t, flush0_2 a t, ?_⟩
  rw [mem_blk2]
  have hi : ((cfg0 a).win 2).index t = cc0_transform_2 (grid0.coords t) := rfl
  have ht := tr2 (grid0.coords t)
  intro ax
  match ax with
  | ⟨0, _⟩ =>
    show ((cfg0 a).win 2).index t (0 : Fin 3) * 1 ≤ (i 0).val ∧ (i 0).val < ((cfg0 a).win 2).index t (0 : Fin 3) * 1 + 1
    rw [hi, ht]
    show (grid0.coords t 0).val * 1 ≤ (i 0).val ∧ (i 0).val < (grid0.coords t 0).val * 1 + 1
    omega
  | ⟨1, _⟩ =>
    show ((cfg0 a).win 2).index t (1 : Fin 3) * 16 ≤ (i 1).val ∧ (i 1).val < ((cfg0 a).win 2).index t (1 : Fin 3) * 16 + 16
    rw [hi, ht]
    show 0 * 16 ≤ (i 1).val ∧ (i 1).val < 0 * 16 + 16
    omega
  | ⟨2, _⟩ =>
    show ((cfg0 a).win 2).index t (2 : Fin 3) * 16384 ≤ (i 2).val ∧ (i 2).val < ((cfg0 a).win 2).index t (2 : Fin 3) * 16384 + 16384
    rw [hi, ht]
    show (grid0.coords t 1).val * 16384 ≤ (i 2).val ∧ (i 2).val < (grid0.coords t 1).val * 16384 + 16384
    omega

/-! ## The two arrays after the region -/

variable (m : (ℓ : Loc nD τ sig) → Buf (Elt Ideal) ℓ)

/-- What point `t` writes back to the index array. -/
private theorem flushed_idx (hO : Ok m) (c : Dev nD) (t : Fin (cfgM m hO).N) :
    (dats m hO 0 c).flushed 1 t
      = (((cfgM m hO).win 1).blk t).view.read (Elt Ideal) (Cert.Voxel.idxArr (V m c main_v2)) := by
  show ((cfgM m hO).win 1).cut (grid0.coords t) ((dats m hO 0 c).after 1 t) = _
  rw [after0_1]
  unfold outsAt0
  dsimp only
  rw [out_idx c (grid0.coords t) (ms0_0 m hO t) (hs0_0 m hO t) (ms0_1 m hO t) (hs0_1 m hO t) (ms0_2 m hO t) (hs0_2 m hO t)
    (iblk m hO c 0 t) (tbl m 0)]
  exact flushed_idx_gen (adm m hO) t (V m c main_v2)

/-- What point `t` writes back to the value array: the table the body reads is the counts array. -/
private theorem flushed_val (hO : Ok m) (c : Dev nD) (t : Fin (cfgM m hO).N) :
    (dats m hO 0 c).flushed 2 t
      = (((cfgM m hO).win 2).blk t).view.read (Elt Ideal) (Cert.Voxel.valArr (V m c main_v2) (V m c main_arg1)) := by
  show ((cfgM m hO).win 2).cut (grid0.coords t) ((dats m hO 0 c).after 2 t) = _
  rw [after0_2]
  unfold outsAt0
  dsimp only
  rw [out_val c (grid0.coords t) (ms0_0 m hO t) (hs0_0 m hO t) (ms0_1 m hO t) (hs0_1 m hO t) (ms0_2 m hO t) (hs0_2 m hO t)
    (iblk m hO c 0 t) (tbl m 0)]
  have hV : tbl m 0 = V m c main_arg1 := (V_pre m c 0).symm
  refine flushed_val_gen (adm m hO) t (V m c main_v2) (V m c main_arg1) _ ?_
  unfold cntW
  rw [hV]

/-- The index array after the region. -/
theorem arr_idx (hO : Ok m) (c : Dev nD) :
    (dats m hO 0 c).arrAt 1 (cfgM m hO).N = Cert.Voxel.idxArr (V m c main_v2) :=
  (dats m hO 0 c).arrAt_eq_of_cover 1 (Cert.Voxel.idxArr (V m c main_v2)) (fun t _ => flushed_idx m hO c t)
    (cover1 (adm m hO))

/-- The value array after the region. -/
theorem arr_val (hO : Ok m) (c : Dev nD) :
    (dats m hO 0 c).arrAt 2 (cfgM m hO).N = Cert.Voxel.valArr (V m c main_v2) (V m c main_arg1) :=
  (dats m hO 0 c).arrAt_eq_of_cover 2 (Cert.Voxel.valArr (V m c main_v2) (V m c main_arg1))
    (fun t _ => flushed_val m hO c t) (cover2 (adm m hO))

end Cert.KernelIdeal.KValue

end
-- ==== Proof.LibScatterFlat.lean ====
/-
  A float scatter-add over flat arrays, read at a cell.

  `x.at[idx].add(v)` on a vector x of K cells, with M scalar updates v and one index per update (the indices as an
  [M, 1] column, the index vector along its second axis, the operand's one axis inserted): at the exact instance cell i
  ends as its old value plus the sum of the updates whose index, read as a signed word and not clamped, is i. An update
  whose index is outside [0, K) lands nowhere.
-/
import Idealize.ShloMosaic.PureOps.Ideal
import Idealize.ShloMosaic.PureOps.Contract
import Idealize.ShloMosaic.Lib.ValueIdx
import Mathlib.Algebra.BigOperators.Group.Finset.Basic
import Mathlib.Algebra.BigOperators.Group.Finset.Defs

noncomputable section

namespace Idealize.ShloMosaic

open Idealize.ShloMosaic.ValueIdx

/-- The scatter-add of `M` scalars into `K` cells by an [M, 1] index column, read at cell `i`: the old value of
    the cell plus the sum of the updates whose index, read as a signed word and not clamped, equals `i`. The
    operand's one axis is inserted, so an update has no window coordinate and its result index is its start index
    alone; an update whose index is outside [0, K) lands nowhere and contributes nothing. -/
theorem Host.scatterAdd_flat_apply {K M w : Nat} {φ : FTy}
    (wf : ScatterDims.WF ⟨1, ![K]⟩ ⟨2, ![M, 1]⟩ ⟨1, ![M]⟩ [] [0] [0] 1)
    (x : FVec Ideal ⟨1, ![K]⟩ φ) (idx : IVec ⟨2, ![M, 1]⟩ w) (upd : FVec Ideal ⟨1, ![M]⟩ φ) (i : Fin K) :
    Host.scatterAdd (F := Ideal)
        ({ updateWindowDims := [], insertedWindowDims := [0], scatterDimsToOperandDims := [0], indexVectorDim := 1, wf := wf } :
          ScatterDims ⟨1, ![K]⟩ ⟨2, ![M, 1]⟩ ⟨1, ![M]⟩) x idx upd (ix1 i)
      = x (ix1 i) + ∑ j : Fin M, if (idx (ix2 j (0 : Fin 1))).toInt = (i.val : Int) then upd (ix1 j) else 0 := by
  set d : ScatterDims ⟨1, ![K]⟩ ⟨2, ![M, 1]⟩ ⟨1, ![M]⟩ :=
    { updateWindowDims := [], insertedWindowDims := [0], scatterDimsToOperandDims := [0], indexVectorDim := 1, wf := wf } with hd
  -- the operand's one axis is inserted: no window coordinate
  have hwin : ∀ (j : (⟨1, ![M]⟩ : Shape).Idx) (a : Fin 1), d.window j a = 0 := by
    intro j a
    unfold ScatterDims.window
    rw [dif_neg]
    intro h
    have hk : d.sKept = [] := rfl
    rw [hk] at h
    exact List.not_mem_nil h
  -- the scatter-indices index an update reads: its own coordinate, then 0 on the index vector's axis
  have hsi : ∀ (j : (⟨1, ![M]⟩ : Shape).Idx) (c : Fin d.scatterDimsToOperandDims.length),
      d.siIdx j c = ix2 (j 0) 0 := by
    intro j c
    funext b
    match b with
    | ⟨0, _⟩ => rfl
    | ⟨1, _⟩ => exact Subsingleton.elim (α := Fin 1) _ _
  have hstart : ∀ (j : (⟨1, ![M]⟩ : Shape).Idx) (a : Fin 1),
      d.start j idx a = (idx (ix2 (j 0) 0)).toInt := by
    intro j a
    unfold ScatterDims.start
    have ha : a ∈ d.scatterDimsToOperandDims := by
      have h0 : a = 0 := Subsingleton.elim _ _
      subst h0
      exact List.mem_singleton.2 rfl
    rw [dif_pos ha, hsi]
    rfl
  have key : ∀ j : (⟨1, ![M]⟩ : Shape).Idx,
      d.resultIdx? j idx = some (ix1 i) ↔ (idx (ix2 (j 0) 0)).toInt = (i.val : Int) := by
    intro j
    unfold ScatterDims.resultIdx?
    constructor
    · intro h
      split at h
      · rename_i hc
        have h1 := Option.some.inj h
        have h2 := congrArg Fin.val (congrFun h1 (0 : Fin 1))
        have h3 := (hc (0 : Fin 1)).1
        rw [hstart, hwin] at h3
        simp only [hstart, hwin] at h2
        change ((idx (ix2 (j 0) 0)).toInt + ((0 : Nat) : Int)).toNat = i.val at h2
        omega
      · cases h
    · intro h
      have hc : ∀ a : Fin 1, 0 ≤ d.start j idx a + d.window j a ∧
          d.start j idx a + d.window j a < (⟨1, ![K]⟩ : Shape).size a := by
        intro a
        rw [hstart, hwin, h]
        match a with
        | ⟨0, _⟩ =>
          have := i.isLt
          change (0 : Int) ≤ (i.val : Int) + ((0 : Nat) : Int) ∧ (i.val : Int) + ((0 : Nat) : Int) < (K : Int)
          omega
      rw [dif_pos hc]
      congr 1
      funext a
      match a with
      | ⟨0, _⟩ =>
        apply Fin.ext
        change (d.start j idx 0 + d.window j 0).toNat = i.val
        rw [hstart, hwin, h]
        omega
  show x (ix1 i) + ∑ j ∈ Finset.univ.filter (fun j => d.resultIdx? j idx = some (ix1 i)), upd j = _
  congr 1
  rw [Finset.sum_filter]
  let e : (⟨1, ![M]⟩ : Shape).Idx ≃ Fin M :=
    { toFun := fun j => j 0, invFun := fun a => ix1 a, left_inv := fun j => (eq_ix1 j).symm, right_inv := fun a => rfl }
  refine Fintype.sum_equiv e _ _ ?_
  intro j
  have hj : j = ix1 (j 0) := eq_ix1 j
  by_cases hq : (idx (ix2 (j 0) 0)).toInt = (i.val : Int)
  · rw [if_pos ((key j).2 hq)]
    show upd j = if (idx (ix2 (j 0) (0 : Fin 1))).toInt = (i.val : Int) then upd (ix1 (j 0)) else 0
    rw [if_pos hq]
    exact congrArg upd hj
  · rw [if_neg (fun h => hq ((key j).1 h))]
    show (0 : Ideal φ) = if (idx (ix2 (j 0) (0 : Fin 1))).toInt = (i.val : Int) then upd (ix1 (j 0)) else 0
    rw [if_neg hq]

end Idealize.ShloMosaic

end
-- ==== Proof.HostK.lean ====
/-
  The kernel program around its region: before it, the events are transposed to channel-major, padded with the word 0
  to 524288 positions and reshaped to 32 packed rows; after it, the two output arrays are flattened, negative indices
  wrapped, and every value added into the cell its index names. With the region's arrays, the program's result.
-/
import proofs.«407325_j25658134626635_3_alg».proof.Proof.Region
import proofs.«407325_j25658134626635_3_alg».proof.Proof.LibScatterFlat
import Idealize.ShloMosaic.Lib.StableHlo.Run

noncomputable section

namespace Cert.KernelIdeal.KValue

open Idealize.ShloMosaic Idealize.ShloMosaic.TcCoe Idealize.SL.Sem Cert.KernelIdeal Cert.KernelIdeal.Gen
open Idealize.ShloMosaic.ValueIdx

variable (m : (ℓ : Loc nD τ sig) → Buf (Elt Ideal) ℓ) (ρ : Dev nD → PrngReg)

/-! ## Before the region -/

/-- The operations before the region as one function of the event array: transpose to [8, 4, 500000], pad the last
    axis to 524288 with the real of the word 0, reshape to [8, 32, 65536]. -/
def prefixK (x : S8x500000x4.Idx → EReal) : S8x32x65536.Idx → EReal :=
  shapeCast S8x32x65536
    (pad S8x4x524288 ![0, 0, 0] ![0, 0, 24288] ![0, 0, 0]
      (transpose S8x4x500000 [0, 2, 1] x transposes_S8x500000x4_S8x4x500000_0_2_1)
      (sitofp (F := Ideal) FTy.f32 (constantI S_ 32 0#32)) pads_S8x4x500000_S8x4x524288_000_000_0242880 h_S_)
    shapeCasts_S8x4x524288_S8x32x65536

/-- Read at (b, row, col): row-major, [8, 4, 524288] → [8, 32, 65536] sends channel row / 8, position
    (row % 8)·65536 + col to (row, col); a position below 500000 is inside the transposed events, any other reads the
    padding value, the real of the integer 0. -/
theorem prefixK_eq (x : S8x500000x4.Idx → EReal) : prefixK x = Cert.Voxel.packed x := by
  funext j
  have h0 : (j 0).val < 8 := (j 0).isLt
  have h1 : (j 1).val < 32 := (j 1).isLt
  have h2 : (j 2).val < 65536 := (j 2).isLt
  unfold prefixK
  rw [shapeCast_apply _ _ j (ix3 (⟨(j 0).val, h0⟩ : Fin 8) (⟨(j 1).val / 8, by omega⟩ : Fin 4) (⟨(j 1).val % 8 * 65536 + (j 2).val, by omega⟩ : Fin 524288))
    (by rw [Shape.rowMajor_val_three, Shape.rowMajor_val_three]
        show ((j 0).val * 4 + (j 1).val / 8) * 524288 + ((j 1).val % 8 * 65536 + (j 2).val) = ((j 0).val * 32 + (j 1).val) * 65536 + (j 2).val
        omega)]
  unfold pad Cert.Voxel.packed
  by_cases h : (j 1).val % 8 * 65536 + (j 2).val < 500000
  · rw [dif_pos h, dif_pos]
    · refine transpose_apply [0, 2, 1] x _ _ _ ?_
      intro b
      fin_cases b
      · show (j 0).val = ((j 0).val - 0) / 1
        omega
      · show (j 1).val / 8 = ((j 1).val / 8 - 0) / 1
        omega
      · show (j 1).val % 8 * 65536 + (j 2).val = ((j 1).val % 8 * 65536 + (j 2).val - 0) / 1
        omega
    · intro a
      fin_cases a
      · show 0 ≤ (j 0).val ∧ ((j 0).val - 0) % 1 = 0 ∧ ((j 0).val - 0) / 1 < 8
        omega
      · show 0 ≤ (j 1).val / 8 ∧ ((j 1).val / 8 - 0) % 1 = 0 ∧ ((j 1).val / 8 - 0) / 1 < 4
        omega
      · show 0 ≤ (j 1).val % 8 * 65536 + (j 2).val ∧ ((j 1).val % 8 * 65536 + (j 2).val - 0) % 1 = 0
          ∧ ((j 1).val % 8 * 65536 + (j 2).val - 0) / 1 < 500000
        omega
  · rw [dif_neg h, dif_neg]
    · show (((0#32).toInt : ℝ) : EReal) = 0
      simp
    · intro hin
      have h3 : ((j 1).val % 8 * 65536 + (j 2).val - 0) / 1 < 500000 := (hin 2).2.2
      omega

/-- What the region finds in its input array, as the operations before it compute it. -/
theorem V_term (c : Dev nD) :
    (V m c main_v2 : S8x32x65536.Idx → EReal) = prefixK (m ((c.tc : Thread nD τ).loc main_arg0)) := by
  dsimp only [V, V0]
  simp only [hostOps0, hostOps0_1, hostOps0_2, List.flatten_cons, List.flatten_nil, List.append_nil, List.cons_append, List.nil_append]
  after_results
  simp only [StableHlo.TRef.ofBuf, StableHlo.TRef.toBuf, cast_eq]
  unfold prefixK
  rfl

/-- The region finds the packed, padded, channel-major event array. -/
theorem V_packed (c : Dev nD) :
    V m c main_v2 = Cert.Voxel.packed (m ((c.tc : Thread nD τ).loc main_arg0)) :=
  (V_term m c).trans (prefixK_eq _)

/-! ## After the region -/

/-- The fourteen operations after the region as one function of the region's two output arrays: flatten both,
    wrap the negative indices around the 147456000 cells, add every value into the cell its index names, starting
    from the word 0 everywhere, and reshape to the grid. -/
def tailK (I : S8x16x65536.Idx → BitVec 32) (W : S8x16x65536.Idx → EReal) : S8x20x720x1280.Idx → EReal :=
  shapeCast S8x20x720x1280
    (Host.scatterAdd (F := Ideal) scatter_S147456000_S8388608x1_S8388608_n_0_0_1
      (broadcastInDim S147456000 ![] bcast_S_S147456000 (constant (F := Ideal) S_ FTy.f32 0x00000000#32))
      (broadcastInDim S8388608x1 ![0] bcast_S8388608_S8388608x1_0
        (select
          (cmpi CmpIPredicate.slt (shapeCast S8388608 I shapeCasts_S8x16x65536_S8388608)
            (broadcastInDim S8388608 ![] bcast_S_S8388608 (constantI S_ 32 0#32)))
          (addi (shapeCast S8388608 I shapeCasts_S8x16x65536_S8388608)
            (broadcastInDim S8388608 ![] bcast_S_S8388608 (constantI S_ 32 147456000#32)))
          (shapeCast S8388608 I shapeCasts_S8x16x65536_S8388608)))
      (shapeCast S8388608 W shapeCasts_S8x16x65536_S8388608))
    shapeCasts_S147456000_S8x20x720x1280

/-- Entry `j` of a flattened [8, 16, 65536] array is the array at `unflatK j`: j = ((j / 1048576)·16 + j / 65536 % 16)·65536 + j % 65536. -/
theorem flat_apply {α : Type} (X : S8x16x65536.Idx → α) (j : Fin 8388608) :
    shapeCast S8388608 X shapeCasts_S8x16x65536_S8388608 (ix1 j) = X (Cert.Voxel.unflatK j) := by
  have hj : j.val < 8388608 := j.isLt
  refine shapeCast_apply X _ (ix1 j) (Cert.Voxel.unflatK j) ?_
  rw [Shape.rowMajor_val_three, Shape.rowMajor_val_one]
  show (j.val / 1048576 * 16 + j.val / 65536 % 16) * 65536 + j.val % 65536 = j.val
  omega

/-- A cell's number is below the number of cells. -/
theorem flatK_lt (cc : S8x20x720x1280.Idx) : Cert.Voxel.flatK cc < 147456000 := by
  have h0 : (cc 0).val < 8 := (cc 0).isLt
  have h1 : (cc 1).val < 20 := (cc 1).isLt
  have h2 : (cc 2).val < 720 := (cc 2).isLt
  have h3 : (cc 3).val < 1280 := (cc 3).isLt
  unfold Cert.Voxel.flatK
  omega

/-- Entry `j` of the index column: the flattened index word, wrapped. -/
theorem idxcol_apply (I : S8x16x65536.Idx → BitVec 32) (j : Fin 8388608) :
    broadcastInDim S8388608x1 ![0] bcast_S8388608_S8388608x1_0
        (select
          (cmpi CmpIPredicate.slt (shapeCast S8388608 I shapeCasts_S8x16x65536_S8388608)
            (broadcastInDim S8388608 ![] bcast_S_S8388608 (constantI S_ 32 0#32)))
          (addi (shapeCast S8388608 I shapeCasts_S8x16x65536_S8388608)
            (broadcastInDim S8388608 ![] bcast_S_S8388608 (constantI S_ 32 147456000#32)))
          (shapeCast S8388608 I shapeCasts_S8x16x65536_S8388608)) (ix2 j (0 : Fin 1))
      = Cert.Voxel.normW (I (Cert.Voxel.unflatK j)) := by
  rw [broadcastInDim_apply _ _ _ (ix2 j (0 : Fin 1)) (ix1 j) (by
    intro a
    fin_cases a
    exact (if_neg (by decide)).symm)]
  show Cert.Voxel.normW (shapeCast S8388608 I shapeCasts_S8x16x65536_S8388608 (ix1 j)) = _
  rw [flat_apply]

/-- The operations after the region leave, in every cell, the word 0 plus the values whose wrapped index is the
    cell's number. -/
theorem tailK_eq (I : S8x16x65536.Idx → BitVec 32) (W : S8x16x65536.Idx → EReal) :
    tailK I W = Cert.Voxel.scatterK I W := by
  funext cc
  unfold tailK
  rw [shapeCast_apply _ _ cc (ix1 (⟨Cert.Voxel.flatK cc, flatK_lt cc⟩ : Fin 147456000))
    (by rw [Shape.rowMajor_val_one, Shape.rowMajor_val_four]; rfl)]
  unfold scatter_S147456000_S8388608x1_S8388608_n_0_0_1
  refine (Host.scatterAdd_flat_apply (K := 147456000) (M := 8388608) (w := 32) (φ := FTy.f32) _ _ _ _
    ⟨Cert.Voxel.flatK cc, flatK_lt cc⟩).trans ?_
  unfold Cert.Voxel.scatterK
  refine congrArg₂ (· + ·) rfl (Finset.sum_congr rfl fun j _ => ?_)
  rw [idxcol_apply, flat_apply]

/-- The result buffer after the fourteen operations, from ANY buffer contents: `tailK` of the two output arrays. -/
theorem tail_after (VV : Valuation τ sig (Elt Ideal)) :
    (StableHlo.after (hostOps1 (F := Ideal)) VV (Proc.devRef .tc main_v14) : S8x20x720x1280.Idx → EReal)
      = tailK (VV (Proc.devRef .tc main_v3_0)) (VV (Proc.devRef .tc main_v3_1)) := by
  simp only [hostOps1]
  after_results
  simp only [cast_eq]
  unfold tailK
  rfl

/-- The result buffer at the program's end: the accumulation of the region's two arrays, which are the index and
    value arrays of the packed events. -/
theorem final (hO : Ok m) (c : Dev nD) :
    Pipeline.afterTail pcfgs (fun _ => adm m hO) (dats m hO) 0 (V0 m) [hostOps1] c main_v14
      = Cert.Voxel.kernelOut (m ((c.tc : Thread nD τ).loc main_arg0)) (m ((c.tc : Thread nD τ).loc main_arg1)) := by
  unfold Pipeline.afterTail
  simp only [List.flatten_cons, List.flatten_nil, List.append_nil]
  refine (tail_after _).trans ?_
  rw [tailK_eq]
  unfold Cert.Voxel.kernelOut
  have e1 := (Pipeline.withArrays_arr spec0 (launch0 (F := Ideal)).win.arr_inj c (V0 m c)
    (fun w => (dats m hO 0 c).arrAt w (cfgM m hO).N) 1).trans (arr_idx m hO c)
  have e2 := (Pipeline.withArrays_arr spec0 (launch0 (F := Ideal)).win.arr_inj c (V0 m c)
    (fun w => (dats m hO 0 c).arrAt w (cfgM m hO).N) 2).trans (arr_val m hO c)
  rw [V_packed] at e1
  rw [V_packed, V_main_arg1] at e2
  exact congrArg₂ Cert.Voxel.scatterK e1 e2

/-- THE KERNEL PROGRAM'S RUN: it ends with the result at `kernelOut` of its arguments, which are unchanged. -/
theorem run (hO : Ok m) :
    θ_run defs (onTc (τ := τ) (main (F := Ideal))) ⟨m, fun _ => 0, ρ⟩ (fun r => ∀ c : Dev nD,
      r.2.mem ((c.tc : Thread nD τ).loc main_v14)
          = Cert.Voxel.kernelOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v14 (by decide : main_v14 ∈ Pipeline.restRefs sig spec0)).trans (final m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c)⟩)
    (run_main m ρ hO)

end Cert.KernelIdeal.KValue

end
-- ==== Proof.KernelSum.lean ====
/-
  The kernel's accumulation is the voxel grid.

  Every entry (b, 8·tap + r, col) of the kernel's arrays is tap `tap` of position r·65536 + col of batch b. A position
  below 500000 is an event, and the entry's index and value are that event's; a position from 500000 on is padding,
  whose value is the word 0 because no count exceeds 500000. So the sum over all entries whose index is a cell's number
  is the sum over taps and events that land on the cell, which is the grid.
-/
import Idealize.ShloMosaic.PureOps.Ideal.Laws
import proofs.«407325_j25658134626635_3_alg».proof.Proof.KernelDefs

noncomputable section

namespace Cert.Voxel

open Idealize.ShloMosaic Idealize.ShloMosaic.ValueIdx

/-- The word 0 is the extended real 0. -/
private theorem zero_eq : zero = 0 := Ideal.ofBits_zero_f32

/-- The clipped taps, rows and columns stay inside the grid. -/
private theorem kcOf_le (tap : Fin 2) (t : EReal) : (kcOf tap t).toNat ≤ 19 := by
  unfold kcOf k0cOf k1cOf
  split
  · exact clipW_toNat_le 19#32 _ (by decide)
  · exact clipW_toNat_le 19#32 _ (by decide)
private theorem ycOf_le (y : EReal) : (ycOf y).toNat ≤ 719 := clipW_toNat_le 719#32 _ (by decide)
private theorem xcOf_le (x : EReal) : (xcOf x).toNat ≤ 1279 := clipW_toNat_le 1279#32 _ (by decide)

/-- Row 8·ch + r, column col of the packed array is channel ch of event r·65536 + col, when that is an event. -/
private theorem packed_in (ev : SEv.Idx → EReal) (b : Fin 8) (ch : Fin 4) (r : Fin 8) (col : Fin 65536)
    (n : Fin 500000) (hn : r.val * 65536 + col.val = n.val) :
    packed ev (ix3 b (rowOf ch r) col) = ev (ix3 b n ch) := by
  have hr : r.val < 8 := r.isLt
  have hch : ch.val < 4 := ch.isLt
  have hnlt : n.val < 500000 := n.isLt
  have h0 : (ch.val * 8 + r.val) % 8 = r.val := by omega
  have h1 : (ch.val * 8 + r.val) % 8 * 65536 + col.val = n.val := by rw [h0]; exact hn
  have h2 : (ch.val * 8 + r.val) / 8 = ch.val := by omega
  have hlt : ((ix3 b (rowOf ch r) col : SPk.Idx) 1).val % 8 * 65536 + ((ix3 b (rowOf ch r) col : SPk.Idx) 2).val
      < 500000 := by
    show (ch.val * 8 + r.val) % 8 * 65536 + col.val < 500000
    rw [h1]; exact hnlt
  unfold packed
  rw [dif_pos hlt]
  congr 1
  funext d
  match d with
  | ⟨0, _⟩ => rfl
  | ⟨1, _⟩ => exact Fin.ext h1
  | ⟨2, _⟩ => exact Fin.ext h2

/-- An entry whose position is an event: its index test is "the tap lands on the cell", its value the tap's
    contribution. -/
private theorem entry_in (ev : SEv.Idx → EReal) (cnt : SCnt.Idx → BitVec 32) (b' b : Fin 8) (row : Fin 16)
    (col : Fin 65536) (tap : Fin 2) (n : Fin 500000) (hb : b'.val = b.val) (ht : row.val / 8 = tap.val)
    (hn : row.val % 8 * 65536 + col.val = n.val) (c : SGrid.Idx) :
    (if (normW (idxAt (packed ev) b' row col)).toInt = (flatK c : Int) then valAt (packed ev) cnt b' row col else 0)
      = if lands ev tap b n c then contrib ev cnt tap b n else 0 := by
  obtain rfl : b' = b := Fin.ext hb
  have htap : tapOf row = tap := Fin.ext ht
  have hsub : (subOf row).val * 65536 + col.val = n.val := hn
  unfold idxAt valAt
  rw [packed_in ev b' 0 (subOf row) col n hsub, packed_in ev b' 1 (subOf row) col n hsub,
    packed_in ev b' 2 (subOf row) col n hsub, packed_in ev b' 3 (subOf row) col n hsub, htap, hsub]
  apply if_congr
  · exact kIdx_lands b' _ _ _ (kcOf_le _ _) (ycOf_le _) (xcOf_le _) c
  · rfl
  · rfl

/-- An entry whose position is padding has the value 0. -/
private theorem valAt_pad (xp : SPk.Idx → EReal) (cnt : SCnt.Idx → BitVec 32)
    (hcnt : ∀ b : Fin 8, (cnt (ix1 b)).toInt ≤ 500000) (b : Fin 8) (row : Fin 16) (col : Fin 65536)
    (h : 500000 ≤ (subOf row).val * 65536 + col.val) : valAt xp cnt b row col = 0 := by
  have hr : (subOf row).val < 8 := (subOf row).isLt
  have hc : col.val < 65536 := col.isLt
  unfold valAt valOf
  rw [validOf_pad _ (hcnt b) _ h (by omega), select_zero, zero_eq]

/-- Tap `tap` of event n of batch b sits at entry (b, 8·tap + n / 65536, n % 65536). -/
private def eK (p : Fin 2 × Fin 8 × Fin 500000) : Fin 8388608 :=
  ⟨(p.2.1.val * 16 + (p.1.val * 8 + p.2.2.val / 65536)) * 65536 + p.2.2.val % 65536, by
    have h1 : p.1.val < 2 := p.1.isLt
    have h2 : p.2.1.val < 8 := p.2.1.isLt
    have h3 : p.2.2.val < 500000 := p.2.2.isLt
    omega⟩

private theorem eK_inj : Function.Injective eK := by
  rintro ⟨t, b, n⟩ ⟨t', b', n'⟩ h
  have h0 : (b.val * 16 + (t.val * 8 + n.val / 65536)) * 65536 + n.val % 65536
      = (b'.val * 16 + (t'.val * 8 + n'.val / 65536)) * 65536 + n'.val % 65536 := congrArg Fin.val h
  have h1 : t.val < 2 := t.isLt
  have h2 : b.val < 8 := b.isLt
  have h3 : n.val < 500000 := n.isLt
  have h1' : t'.val < 2 := t'.isLt
  have h2' : b'.val < 8 := b'.isLt
  have h3' : n'.val < 500000 := n'.isLt
  have e1 : t = t' := Fin.ext (by omega)
  have e2 : b = b' := Fin.ext (by omega)
  have e3 : n = n' := Fin.ext (by omega)
  rw [e1, e2, e3]

/-- The summand of the kernel's accumulation at entry j, for cell c. -/
private def termK (ev : SEv.Idx → EReal) (cnt : SCnt.Idx → BitVec 32) (c : SGrid.Idx) (j : Fin 8388608) : EReal :=
  if (normW (idxArr (packed ev) (unflatK j))).toInt = (flatK c : Int) then valArr (packed ev) cnt (unflatK j) else 0

private theorem termK_eq (ev : SEv.Idx → EReal) (cnt : SCnt.Idx → BitVec 32) (c : SGrid.Idx) (j : Fin 8388608) :
    termK ev cnt c j
      = if (normW (idxAt (packed ev) (⟨j.val / 1048576, by omega⟩ : Fin 8) (⟨j.val / 65536 % 16, by omega⟩ : Fin 16)
            (⟨j.val % 65536, by omega⟩ : Fin 65536))).toInt = (flatK c : Int)
        then valAt (packed ev) cnt (⟨j.val / 1048576, by omega⟩ : Fin 8) (⟨j.val / 65536 % 16, by omega⟩ : Fin 16)
            (⟨j.val % 65536, by omega⟩ : Fin 65536)
        else 0 := rfl

/-- At the entry of a tap of an event, the summand is that tap's. -/
private theorem termK_in (ev : SEv.Idx → EReal) (cnt : SCnt.Idx → BitVec 32) (c : SGrid.Idx)
    (p : Fin 2 × Fin 8 × Fin 500000) :
    (if lands ev p.1 p.2.1 p.2.2 c then contrib ev cnt p.1 p.2.1 p.2.2 else 0) = termK ev cnt c (eK p) := by
  obtain ⟨t, b, n⟩ := p
  have h1 : t.val < 2 := t.isLt
  have h2 : b.val < 8 := b.isLt
  have h3 : n.val < 500000 := n.isLt
  rw [termK_eq]
  symm
  apply entry_in
  · show ((b.val * 16 + (t.val * 8 + n.val / 65536)) * 65536 + n.val % 65536) / 1048576 = b.val
    omega
  · show ((b.val * 16 + (t.val * 8 + n.val / 65536)) * 65536 + n.val % 65536) / 65536 % 16 / 8 = t.val
    omega
  · show ((b.val * 16 + (t.val * 8 + n.val / 65536)) * 65536 + n.val % 65536) / 65536 % 16 % 8 * 65536
        + ((b.val * 16 + (t.val * 8 + n.val / 65536)) * 65536 + n.val % 65536) % 65536 = n.val
    omega

/-- Every other entry is padding, and its summand is 0. -/
private theorem termK_pad (ev : SEv.Idx → EReal) (cnt : SCnt.Idx → BitVec 32)
    (hcnt : ∀ b : Fin 8, (cnt (ix1 b)).toInt ≤ 500000) (c : SGrid.Idx) (j : Fin 8388608)
    (hj : j ∉ Set.range eK) : termK ev cnt c j = 0 := by
  have hjlt : j.val < 8388608 := j.isLt
  by_cases h : j.val / 65536 % 16 % 8 * 65536 + j.val % 65536 < 500000
  · exfalso
    apply hj
    refine ⟨((⟨j.val / 65536 % 16 / 8, by omega⟩ : Fin 2), (⟨j.val / 1048576, by omega⟩ : Fin 8),
      (⟨j.val / 65536 % 16 % 8 * 65536 + j.val % 65536, h⟩ : Fin 500000)), Fin.ext ?_⟩
    show (j.val / 1048576 * 16 + (j.val / 65536 % 16 / 8 * 8
        + (j.val / 65536 % 16 % 8 * 65536 + j.val % 65536) / 65536)) * 65536
        + (j.val / 65536 % 16 % 8 * 65536 + j.val % 65536) % 65536 = j.val
    omega
  · rw [termK_eq, valAt_pad (packed ev) cnt hcnt _ _ _ (by show 500000 ≤ j.val / 65536 % 16 % 8 * 65536 + j.val % 65536; omega)]
    exact ite_self 0

theorem kernelOut_eq_grid (ev : SEv.Idx → EReal) (cnt : SCnt.Idx → BitVec 32)
    (hcnt : ∀ b : Fin 8, (cnt (ix1 b)).toInt ≤ 500000) : kernelOut ev cnt = grid ev cnt := by
  funext c
  show zero + ∑ j : Fin 8388608, termK ev cnt c j
    = ∑ tap : Fin 2, ∑ b : Fin 8, ∑ n : Fin 500000, if lands ev tap b n c then contrib ev cnt tap b n else 0
  rw [zero_eq, zero_add,
    ← Fintype.sum_of_injective eK eK_inj
      (fun p : Fin 2 × Fin 8 × Fin 500000 => if lands ev p.1 p.2.1 p.2.2 c then contrib ev cnt p.1 p.2.1 p.2.2 else 0)
      (termK ev cnt c) (termK_pad ev cnt hcnt c) (termK_in ev cnt c),
    Fintype.sum_prod_type]
  refine Finset.sum_congr rfl fun tap _ => ?_
  rw [Fintype.sum_prod_type]

end Cert.Voxel

end
-- ==== Proof.RefDefs.lean ====
/-
  The reference's side, with no program in sight: it adds tap 0 of every event into the cell its index names,
  then tap 1 of every event, over a grid numbered (b, x, y, k), and transposes. Cell `c` of the transposed result is
  the word 0, plus the tap-0 values whose index is c's number in the reference's order, plus the tap-1 values
  likewise (`refOut`).
-/
import proofs.«407325_j25658134626635_3_alg».proof.Proof.Cells

noncomputable section

namespace Cert.Voxel

open Idealize.ShloMosaic Idealize.ShloMosaic.ValueIdx

/-- Entry `j` of the flattened [8, 500000] arrays: its batch and its event. -/
def batchOf (j : Fin 4000000) : Fin 8 := ⟨j.val / 500000, by omega⟩
def eventOf (j : Fin 4000000) : Fin 500000 := ⟨j.val % 500000, by omega⟩

/-- The reference's flat index of tap `tap` of event (b, n). -/
def refIdx (ev : SEv.Idx → EReal) (tap : Fin 2) (b : Fin 8) (n : Fin 500000) : BitVec 32 :=
  rIdx b (kcOf tap (ev (ix3 b n 2))) (ycOf (ev (ix3 b n 1))) (xcOf (ev (ix3 b n 0)))

/-- One accumulation pass of the reference at cell `c`: the tap's values whose (wrapped) index is c's number. -/
def refPass (ev : SEv.Idx → EReal) (cnt : SCnt.Idx → BitVec 32) (tap : Fin 2) (c : SGrid.Idx) : EReal :=
  ∑ j : Fin 4000000, if (normW (refIdx ev tap (batchOf j) (eventOf j))).toInt = (flatR c : Int)
    then contrib ev cnt tap (batchOf j) (eventOf j) else 0

/-- The reference program's result, as a function of the event array and the counts. -/
def refOut (ev : SEv.Idx → EReal) (cnt : SCnt.Idx → BitVec 32) : SGrid.Idx → EReal := fun c =>
  (zero + refPass ev cnt 0 c) + refPass ev cnt 1 c

end Cert.Voxel

end
-- ==== Proof.RefValue.lean ====
/-
  The reference program's result, read index by index through its generated stages down to its two accumulation
  passes: it is `refOut` of the arguments.

  First every [8, 500000] stage at an entry (b, n): the four channels of the event, its clipped pixel, its bins and
  weights, its polarity, whether it counts, the flat index and the value of each tap. Then the flattened [4000000]
  stages at an entry j, which is entry (j / 500000, j % 500000) of the [8, 500000] arrays. Last a cell of the result:
  the transpose and the reshape read the flat array at the cell's number in the reference's order, and each of the
  two accumulation passes adds, to what was there, the updates whose wrapped index is that number.
-/
import proofs.«407325_j25658134626635_3_alg».proof.Proof.Gen.ReferenceIdeal.Read
import proofs.«407325_j25658134626635_3_alg».proof.Proof.RefDefs
import proofs.«407325_j25658134626635_3_alg».proof.Proof.LibScatterFlat

noncomputable section

namespace Cert.ReferenceIdeal.RValue

open Idealize.ShloMosaic Idealize.ShloMosaic.TcCoe Idealize.SL.Sem Cert.ReferenceIdeal Cert.ReferenceIdeal.Gen
open Idealize.ShloMosaic.ValueIdx Cert.Voxel Cert.ReferenceIdeal.Read

/-! ## The [8, 500000] stages at an entry (b, n) -/

/-- Channel 0 (the x coordinate) of event (b, n), read through the slice and the reshape. -/
theorem chan0_at (ev : (⟨S8x500000x4, .f32⟩ : BufTy).Contents (Elt Ideal)) (b : Fin 8) (n : Fin 500000) :
    val_main_v1 (F := Ideal) ev (ix2 b n) = ev (ix3 b n 0) := by
  rw [val_main_v1_apply, val_main_v0_apply]
  congr 1
  funext a
  apply Fin.ext
  have hb : b.val < 8 := b.isLt
  have hn : n.val < 500000 := n.isLt
  match a with
  | ⟨0, _⟩ => show (b.val * 500000 + n.val) / 500000 = b.val; omega
  | ⟨1, _⟩ => show (b.val * 500000 + n.val) / 1 % 500000 = n.val; omega
  | ⟨2, _⟩ => rfl

/-- Channel 1 (the y coordinate) of event (b, n). -/
theorem chan1_at (ev : (⟨S8x500000x4, .f32⟩ : BufTy).Contents (Elt Ideal)) (b : Fin 8) (n : Fin 500000) :
    val_main_v4 (F := Ideal) ev (ix2 b n) = ev (ix3 b n 1) := by
  rw [val_main_v4_apply, val_main_v3_apply]
  congr 1
  funext a
  apply Fin.ext
  have hb : b.val < 8 := b.isLt
  have hn : n.val < 500000 := n.isLt
  match a with
  | ⟨0, _⟩ => show (b.val * 500000 + n.val) / 500000 = b.val; omega
  | ⟨1, _⟩ => show (b.val * 500000 + n.val) / 1 % 500000 = n.val; omega
  | ⟨2, _⟩ => rfl

/-- Channel 2 (the time) of event (b, n). -/
theorem chan2_at (ev : (⟨S8x500000x4, .f32⟩ : BufTy).Contents (Elt Ideal)) (b : Fin 8) (n : Fin 500000) :
    val_main_v7 (F := Ideal) ev (ix2 b n) = ev (ix3 b n 2) := by
  rw [val_main_v7_apply, val_main_v6_apply]
  congr 1
  funext a
  apply Fin.ext
  have hb : b.val < 8 := b.isLt
  have hn : n.val < 500000 := n.isLt
  match a with
  | ⟨0, _⟩ => show (b.val * 500000 + n.val) / 500000 = b.val; omega
  | ⟨1, _⟩ => show (b.val * 500000 + n.val) / 1 % 500000 = n.val; omega
  | ⟨2, _⟩ => rfl

/-- Channel 3 (the polarity bit) of event (b, n). -/
theorem chan3_at (ev : (⟨S8x500000x4, .f32⟩ : BufTy).Contents (Elt Ideal)) (b : Fin 8) (n : Fin 500000) :
    val_main_v9 (F := Ideal) ev (ix2 b n) = ev (ix3 b n 3) := by
  rw [val_main_v9_apply, val_main_v8_apply]
  congr 1
  funext a
  apply Fin.ext
  have hb : b.val < 8 := b.isLt
  have hn : n.val < 500000 := n.isLt
  match a with
  | ⟨0, _⟩ => show (b.val * 500000 + n.val) / 500000 = b.val; omega
  | ⟨1, _⟩ => show (b.val * 500000 + n.val) / 1 % 500000 = n.val; omega
  | ⟨2, _⟩ => rfl

/-- The clipped pixel column of event (b, n). -/
theorem xc_at (ev : (⟨S8x500000x4, .f32⟩ : BufTy).Contents (Elt Ideal)) (b : Fin 8) (n : Fin 500000) :
    val_main_v32 (F := Ideal) ev (ix2 b n) = xcOf (ev (ix3 b n 0)) := by
  rw [val_main_v32_apply, val_main_call2_v4_apply, val_main_call2_v3_apply, val_main_c_8_apply,
    val_main_call2_v2_apply, val_main_call2_v1_apply, val_main_call2_v0_apply, val_main_c_7_apply,
    val_main_v2_apply, chan0_at]
  rfl

/-- The clipped pixel row of event (b, n). -/
theorem yc_at (ev : (⟨S8x500000x4, .f32⟩ : BufTy).Contents (Elt Ideal)) (b : Fin 8) (n : Fin 500000) :
    val_main_v33 (F := Ideal) ev (ix2 b n) = ycOf (ev (ix3 b n 1)) := by
  rw [val_main_v33_apply, val_main_call3_v4_apply, val_main_call3_v3_apply, val_main_c_10_apply,
    val_main_call3_v2_apply, val_main_call3_v1_apply, val_main_call3_v0_apply, val_main_c_9_apply,
    val_main_v5_apply, chan1_at]
  rfl

/-- The continuous bin coordinate of event (b, n). -/
theorem tb_at (ev : (⟨S8x500000x4, .f32⟩ : BufTy).Contents (Elt Ideal)) (b : Fin 8) (n : Fin 500000) :
    val_main_v21 (F := Ideal) ev (ix2 b n) = tbOf (ev (ix3 b n 2)) := by
  rw [val_main_v21_apply, val_main_v20_apply, val_main_cst_1_apply, chan2_at]
  rfl

/-- The integer bin of event (b, n), as a word. -/
theorem k0_at (ev : (⟨S8x500000x4, .f32⟩ : BufTy).Contents (Elt Ideal)) (b : Fin 8) (n : Fin 500000) :
    val_main_v23 (F := Ideal) ev (ix2 b n) = k0Of (ev (ix3 b n 2)) := by
  rw [val_main_v23_apply, val_main_v22_apply, tb_at]
  rfl

/-- Tap 0's clipped bin of event (b, n). -/
theorem k0c_at (ev : (⟨S8x500000x4, .f32⟩ : BufTy).Contents (Elt Ideal)) (b : Fin 8) (n : Fin 500000) :
    val_main_v28 (F := Ideal) ev (ix2 b n) = k0cOf (ev (ix3 b n 2)) := by
  rw [val_main_v28_apply, val_main_call0_v4_apply, val_main_call0_v3_apply, val_main_c_3_apply,
    val_main_call0_v2_apply, val_main_call0_v1_apply, val_main_call0_v0_apply, val_main_c_apply, k0_at]
  rfl

/-- Tap 1's clipped bin of event (b, n). -/
theorem k1c_at (ev : (⟨S8x500000x4, .f32⟩ : BufTy).Contents (Elt Ideal)) (b : Fin 8) (n : Fin 500000) :
    val_main_v31 (F := Ideal) ev (ix2 b n) = k1cOf (ev (ix3 b n 2)) := by
  rw [val_main_v31_apply, val_main_call1_v4_apply, val_main_call1_v3_apply, val_main_c_6_apply,
    val_main_call1_v2_apply, val_main_call1_v1_apply, val_main_call1_v0_apply, val_main_c_5_apply,
    val_main_v30_apply, val_main_v29_apply, val_main_c_4_apply, k0_at]
  rfl

/-- The flat offset of pixel (b, x, y) of event (b, n), before the bin is added. -/
theorem base_at (ev : (⟨S8x500000x4, .f32⟩ : BufTy).Contents (Elt Ideal)) (b : Fin 8) (n : Fin 500000) :
    val_main_v44 (F := Ideal) ev (ix2 b n)
      = IntOp.muli (IntOp.addi (IntOp.muli (IntOp.addi (IntOp.muli (BitVec.ofNat 32 b.val) 1280#32)
          (xcOf (ev (ix3 b n 0)))) 720#32) (ycOf (ev (ix3 b n 1)))) 20#32 := by
  rw [val_main_v44_apply, val_main_v43_apply, val_main_c_13_apply, val_main_v42_apply, val_main_v41_apply,
    val_main_v40_apply, val_main_c_12_apply, val_main_v39_apply, val_main_v38_apply, val_main_v37_apply,
    val_main_v36_apply, val_main_c_11_apply, val_main_v35_apply, val_main_v34_apply, xc_at, yc_at]

/-- The reference's flat index of tap 0 of event (b, n). -/
theorem idx0_at (ev : (⟨S8x500000x4, .f32⟩ : BufTy).Contents (Elt Ideal)) (b : Fin 8) (n : Fin 500000) :
    val_main_v50 (F := Ideal) ev (ix2 b n) = refIdx ev 0 b n := by
  rw [val_main_v50_apply, base_at, k0c_at]
  rfl

/-- The reference's flat index of tap 1 of event (b, n). -/
theorem idx1_at (ev : (⟨S8x500000x4, .f32⟩ : BufTy).Contents (Elt Ideal)) (b : Fin 8) (n : Fin 500000) :
    val_main_v60 (F := Ideal) ev (ix2 b n) = refIdx ev 1 b n := by
  rw [val_main_v60_apply, base_at, k1c_at]
  rfl

/-- The polarity of event (b, n). -/
theorem pol_at (ev : (⟨S8x500000x4, .f32⟩ : BufTy).Contents (Elt Ideal)) (b : Fin 8) (n : Fin 500000) :
    val_main_v13 (F := Ideal) ev (ix2 b n) = polOf (ev (ix3 b n 3)) := by
  rw [val_main_v13_apply, val_main_v12_apply, val_main_cst_0_apply, val_main_v11_apply, val_main_v10_apply,
    val_main_cst_apply, chan3_at]
  rfl

/-- Tap 1's weight of event (b, n). -/
theorem w1_at (ev : (⟨S8x500000x4, .f32⟩ : BufTy).Contents (Elt Ideal)) (b : Fin 8) (n : Fin 500000) :
    val_main_v25 (F := Ideal) ev (ix2 b n) = w1Of (ev (ix3 b n 2)) := by
  rw [val_main_v25_apply, val_main_v24_apply, tb_at, k0_at]
  rfl

/-- Tap 0's weight of event (b, n). -/
theorem w0_at (ev : (⟨S8x500000x4, .f32⟩ : BufTy).Contents (Elt Ideal)) (b : Fin 8) (n : Fin 500000) :
    val_main_v27 (F := Ideal) ev (ix2 b n) = w0Of (ev (ix3 b n 2)) := by
  rw [val_main_v27_apply, val_main_v26_apply, val_main_cst_2_apply, w1_at]
  rfl

/-- Whether event (b, n) counts: its position, as a word, against the batch's count. -/
theorem valid_at (cnt : (⟨S8, .i32⟩ : BufTy).Contents (Elt Ideal)) (b : Fin 8) (n : Fin 500000) :
    val_main_v19 (F := Ideal) cnt (ix2 b n) = validOf n.val (cnt (ix1 b)) := by
  have e : idx_main_v16 (idx_main_v18 (ix2 b n)) = ix1 b := by
    funext a
    match a with
    | ⟨0, _⟩ => rfl
  rw [val_main_v19_apply, val_main_v17_apply, val_main_v15_apply, val_main_v14_apply, val_main_v18_apply,
    val_main_v16_apply, e]
  rfl

/-- What tap 0 of event (b, n) adds. -/
theorem v0_at (ev : (⟨S8x500000x4, .f32⟩ : BufTy).Contents (Elt Ideal)) (cnt : (⟨S8, .i32⟩ : BufTy).Contents (Elt Ideal))
    (b : Fin 8) (n : Fin 500000) :
    val_main_v46 (F := Ideal) ev cnt (ix2 b n) = contrib ev cnt 0 b n := by
  rw [val_main_v46_apply, val_main_call4_v1_apply, val_main_call4_v0_apply, val_main_cst_14_apply,
    val_main_v45_apply, valid_at, pol_at, w0_at]
  rfl

/-- What tap 1 of event (b, n) adds. -/
theorem v1_at (ev : (⟨S8x500000x4, .f32⟩ : BufTy).Contents (Elt Ideal)) (cnt : (⟨S8, .i32⟩ : BufTy).Contents (Elt Ideal))
    (b : Fin 8) (n : Fin 500000) :
    val_main_v48 (F := Ideal) ev cnt (ix2 b n) = contrib ev cnt 1 b n := by
  rw [val_main_v48_apply, val_main_call5_v1_apply, val_main_call5_v0_apply, val_main_cst_15_apply,
    val_main_v47_apply, valid_at, pol_at, w1_at]
  rfl

/-! ## The flattened stages at an entry j -/

/-- Entry j of the flattened tap-0 indices is entry (batchOf j, eventOf j) of the [8, 500000] array. -/
theorem flat_idx0 (j : Fin 4000000) : idx_main_v51 (ix1 j) = ix2 (batchOf j) (eventOf j) := by
  funext a
  match a with
  | ⟨0, _⟩ => rfl
  | ⟨1, _⟩ => rfl

/-- The same for the flattened tap-0 values. -/
theorem flat_val0 (j : Fin 4000000) : idx_main_v52 (ix1 j) = ix2 (batchOf j) (eventOf j) := by
  funext a
  match a with
  | ⟨0, _⟩ => rfl
  | ⟨1, _⟩ => rfl

/-- The same for the flattened tap-1 indices. -/
theorem flat_idx1 (j : Fin 4000000) : idx_main_v61 (ix1 j) = ix2 (batchOf j) (eventOf j) := by
  funext a
  match a with
  | ⟨0, _⟩ => rfl
  | ⟨1, _⟩ => rfl

/-- The same for the flattened tap-1 values. -/
theorem flat_val1 (j : Fin 4000000) : idx_main_v62 (ix1 j) = ix2 (batchOf j) (eventOf j) := by
  funext a
  match a with
  | ⟨0, _⟩ => rfl
  | ⟨1, _⟩ => rfl

/-- Row j of the tap-0 index column: the wrapped flat index of tap 0 of event (batchOf j, eventOf j). -/
theorem col0_at (ev : (⟨S8x500000x4, .f32⟩ : BufTy).Contents (Elt Ideal)) (j : Fin 4000000) :
    val_main_v58 (F := Ideal) ev (ix2 j (0 : Fin 1)) = normW (refIdx ev 0 (batchOf j) (eventOf j)) := by
  have e : idx_main_v58 (ix2 j (0 : Fin 1)) = ix1 j := by
    funext a
    match a with
    | ⟨0, _⟩ => rfl
  rw [val_main_v58_apply, e, val_main_v57_apply, val_main_v54_apply, val_main_v56_apply, val_main_v55_apply,
    val_main_c_18_apply, val_main_v53_apply, val_main_c_17_apply, val_main_v51_apply, flat_idx0, idx0_at]
  rfl

/-- Row j of the tap-1 index column. -/
theorem col1_at (ev : (⟨S8x500000x4, .f32⟩ : BufTy).Contents (Elt Ideal)) (j : Fin 4000000) :
    val_main_v68 (F := Ideal) ev (ix2 j (0 : Fin 1)) = normW (refIdx ev 1 (batchOf j) (eventOf j)) := by
  have e : idx_main_v68 (ix2 j (0 : Fin 1)) = ix1 j := by
    funext a
    match a with
    | ⟨0, _⟩ => rfl
  rw [val_main_v68_apply, e, val_main_v67_apply, val_main_v64_apply, val_main_v66_apply, val_main_v65_apply,
    val_main_c_20_apply, val_main_v63_apply, val_main_c_19_apply, val_main_v61_apply, flat_idx1, idx1_at]
  rfl

/-- Entry j of the flattened tap-0 values. -/
theorem upd0_at (ev : (⟨S8x500000x4, .f32⟩ : BufTy).Contents (Elt Ideal)) (cnt : (⟨S8, .i32⟩ : BufTy).Contents (Elt Ideal))
    (j : Fin 4000000) :
    val_main_v52 (F := Ideal) ev cnt (ix1 j) = contrib ev cnt 0 (batchOf j) (eventOf j) := by
  rw [val_main_v52_apply, flat_val0, v0_at]

/-- Entry j of the flattened tap-1 values. -/
theorem upd1_at (ev : (⟨S8x500000x4, .f32⟩ : BufTy).Contents (Elt Ideal)) (cnt : (⟨S8, .i32⟩ : BufTy).Contents (Elt Ideal))
    (j : Fin 4000000) :
    val_main_v62 (F := Ideal) ev cnt (ix1 j) = contrib ev cnt 1 (batchOf j) (eventOf j) := by
  rw [val_main_v62_apply, flat_val1, v1_at]

/-- The array both passes start from is the word 0 everywhere. -/
theorem init_at (i : Fin 147456000) : val_main_v49 (F := Ideal) (ix1 i) = zero := by
  rw [val_main_v49_apply, val_main_cst_16_apply]
  rfl

/-! ## A cell of the result -/

/-- A cell's number in the reference's order is below the number of cells. -/
theorem flatR_lt (c : SGrid.Idx) : flatR c < 147456000 := by
  have h0 : (c 0).val < 8 := (c 0).isLt
  have h1 : (c 1).val < 20 := (c 1).isLt
  have h2 : (c 2).val < 720 := (c 2).isLt
  have h3 : (c 3).val < 1280 := (c 3).isLt
  unfold flatR
  omega

/-- The reference's result at one cell: the transpose and the reshape read the twice-accumulated flat array at the
    cell's number in the reference's order, and each accumulation pass adds the updates whose index is that number. -/
theorem cell_eq (ev : (⟨S8x500000x4, .f32⟩ : BufTy).Contents (Elt Ideal)) (cnt : (⟨S8, .i32⟩ : BufTy).Contents (Elt Ideal))
    (c : SGrid.Idx) :
    val_main_v71 (F := Ideal) ev cnt c = refOut ev cnt c := by
  have e : idx_main_v70 (idx_main_v71 c) = ix1 (⟨flatR c, flatR_lt c⟩ : Fin 147456000) := by
    funext a
    match a with
    | ⟨0, _⟩ => rfl
  rw [val_main_v71_apply, val_main_v70_apply, e]
  unfold val_main_v69 val_main_v59 scatter_S147456000_S4000000x1_S4000000_n_0_0_1
  rw [Host.scatterAdd_flat_apply, Host.scatterAdd_flat_apply]
  simp only [col0_at, col1_at, upd0_at, upd1_at, init_at]
  rfl

theorem value_eq (ev : (⟨S8x500000x4, .f32⟩ : BufTy).Contents (Elt Ideal)) (cnt : (⟨S8, .i32⟩ : BufTy).Contents (Elt Ideal)) :
    Cert.ReferenceIdeal.Read.val_main_v71 (F := Ideal) ev cnt = Cert.Voxel.refOut ev cnt := by
  funext c
  exact cell_eq ev cnt c

end Cert.ReferenceIdeal.RValue

end
-- ==== Proof.RefSum.lean ====
/-
  The reference's two accumulation passes are the voxel grid: pass `tap` adds, at a cell, the tap's contributions
  of the events whose index is the cell's number in the reference's order, which are the events whose tap lands on the
  cell; the two passes are the two taps of the grid's sum.

  The steps: the word 0 is the extended real 0; an entry j of the flattened [8, 500000] arrays is the pair
  (j / 500000, j % 500000), and that pairing is a bijection between Fin 4000000 and Fin 8 × Fin 500000, so a sum over
  the entries is a double sum over batches and events; the index test of a pass holds exactly when the tap lands on the
  cell, since the three clipped words are within the digits' ranges; and a sum over the two taps is the tap-0 term plus
  the tap-1 term.
-/
import proofs.«407325_j25658134626635_3_alg».proof.Proof.RefDefs
import Mathlib.Algebra.BigOperators.Fin
import Mathlib.Data.Fintype.BigOperators

noncomputable section

namespace Cert.Voxel

open Idealize.ShloMosaic Idealize.ShloMosaic.ValueIdx

/-- The word 0 is the extended real 0. -/
private theorem zero_eq : zero = 0 := by
  simp [zero, Ideal.ofBits, Ideal.ieee]

/-- A tap's bin is at most 19. -/
private theorem kcOf_toNat_le (tap : Fin 2) (t : EReal) : (kcOf tap t).toNat ≤ 19 := by
  unfold kcOf
  split
  · exact clipW_toNat_le 19#32 (k0Of t) (by decide)
  · exact clipW_toNat_le 19#32 (IntOp.addi (k0Of t) 1#32) (by decide)

/-- A pixel row is at most 719. -/
private theorem ycOf_toNat_le (y : EReal) : (ycOf y).toNat ≤ 719 :=
  clipW_toNat_le 719#32 (Ideal.fptosi 32 y) (by decide)

/-- A pixel column is at most 1279. -/
private theorem xcOf_toNat_le (x : EReal) : (xcOf x).toNat ≤ 1279 :=
  clipW_toNat_le 1279#32 (Ideal.fptosi 32 x) (by decide)

/-- The index test of a pass is the landing of the tap on the cell. -/
private theorem test_iff_lands (ev : SEv.Idx → EReal) (tap : Fin 2) (b : Fin 8) (n : Fin 500000) (c : SGrid.Idx) :
    (normW (refIdx ev tap b n)).toInt = (flatR c : Int) ↔ lands ev tap b n c := by
  unfold refIdx lands
  exact rIdx_lands b _ _ _ (kcOf_toNat_le tap _) (ycOf_toNat_le _) (xcOf_toNat_le _) c

/-- Batch b and event n are entry b·500000 + n of the flattened arrays; every entry is such a pair exactly once. -/
private def pairEquiv : Fin 8 × Fin 500000 ≃ Fin 4000000 where
  toFun p := ⟨p.1.val * 500000 + p.2.val, by
    have h1 : p.1.val < 8 := p.1.isLt
    have h2 : p.2.val < 500000 := p.2.isLt
    omega⟩
  invFun j := (batchOf j, eventOf j)
  left_inv := by
    rintro ⟨⟨b, hb⟩, ⟨n, hn⟩⟩
    simp only [batchOf, eventOf, Prod.mk.injEq, Fin.mk.injEq]
    constructor <;> omega
  right_inv := by
    rintro ⟨j, hj⟩
    simp only [batchOf, eventOf, Fin.mk.injEq]
    omega

private theorem batchOf_pair (b : Fin 8) (n : Fin 500000) : batchOf (pairEquiv (b, n)) = b :=
  congrArg Prod.fst (pairEquiv.left_inv (b, n))

private theorem eventOf_pair (b : Fin 8) (n : Fin 500000) : eventOf (pairEquiv (b, n)) = n :=
  congrArg Prod.snd (pairEquiv.left_inv (b, n))

/-- One pass of the reference at a cell is the double sum, over batches and events, of the tap's contributions that
    land on the cell. -/
private theorem refPass_eq (ev : SEv.Idx → EReal) (cnt : SCnt.Idx → BitVec 32) (tap : Fin 2) (c : SGrid.Idx) :
    refPass ev cnt tap c
      = ∑ b : Fin 8, ∑ n : Fin 500000, if lands ev tap b n c then contrib ev cnt tap b n else 0 := by
  unfold refPass
  rw [← Equiv.sum_comp pairEquiv, Fintype.sum_prod_type]
  refine Finset.sum_congr rfl (fun b _ => Finset.sum_congr rfl (fun n _ => ?_))
  rw [batchOf_pair, eventOf_pair]
  by_cases h : lands ev tap b n c
  · rw [if_pos h, if_pos ((test_iff_lands ev tap b n c).2 h)]
  · rw [if_neg h, if_neg (fun h' => h ((test_iff_lands ev tap b n c).1 h'))]

theorem refOut_eq_grid (ev : SEv.Idx → EReal) (cnt : SCnt.Idx → BitVec 32) : refOut ev cnt = grid ev cnt := by
  funext c
  unfold refOut grid
  rw [Fin.sum_univ_two, refPass_eq, refPass_eq, zero_eq, zero_add]

end Cert.Voxel

end
-- ==== Proof.lean ====
/-
  The event-to-voxel-grid kernel against its jnp reference, over the extended reals.

  Both programs compute the voxel grid `Cert.Voxel.grid` of the event array and the counts (Proof/Spec.lean): cell
  (b, k, y, x) is the sum, over the two interpolation taps and the counted events of batch b whose tap lands on
  (k, y, x), of polarity times the tap's weight. The kernel pads each batch to 524288 positions with zeros, packs them
  eight deep, emits for every position and tap a flat cell index and a value (zero where the position is not below the
  count) and adds all values into their cells in one accumulation over cells numbered (b, k, y, x); the reference adds tap 0
  and then tap 1 of the 500000 events over cells numbered (b, x, y, k) and transposes. A padding position is below no
  count that is at most 500000, which is the one thing the precondition is used for; the event values may be any
  extended reals, the sums being rearranged by commutativity and associativity alone.
  The kernel's two frames are the generated ones (its prefetched count table is read by no index map, so their side
  condition is `True`); the reference's frame is its generated run; the ideal pass rewrote nothing.
-/
import proofs.«407325_j25658134626635_3_alg».proof.Defs
import proofs.«407325_j25658134626635_3_alg».proof.Proof.Gen.Kernel
import proofs.«407325_j25658134626635_3_alg».proof.Proof.Gen.Kernel.Frame
import proofs.«407325_j25658134626635_3_alg».proof.Proof.Gen.KernelIdeal
import proofs.«407325_j25658134626635_3_alg».proof.Proof.Gen.KernelIdeal.Frame
import proofs.«407325_j25658134626635_3_alg».proof.Proof.Gen.ReferenceIdeal
import proofs.«407325_j25658134626635_3_alg».proof.Proof.Gen.ReferenceIdeal.Run
import proofs.«407325_j25658134626635_3_alg».proof.Proof.Gen.ReferenceIdeal.Read
import proofs.«407325_j25658134626635_3_alg».proof.Proof.Gen.Pre_finite_inputs
import proofs.«407325_j25658134626635_3_alg».proof.Proof.PreFacts
import proofs.«407325_j25658134626635_3_alg».proof.Proof.HostK
import proofs.«407325_j25658134626635_3_alg».proof.Proof.KernelSum
import proofs.«407325_j25658134626635_3_alg».proof.Proof.RefValue
import proofs.«407325_j25658134626635_3_alg».proof.Proof.RefSum
import Idealize.ShloMosaic.Adequacy
import Idealize.ShloMosaic.Init

noncomputable section

namespace Cert.Proof

open Idealize.ShloMosaic Idealize.ShloMosaic.TcCoe Idealize.SL.Sem

/-- No index map of the pallas_call reads the count table: the pipeline asks nothing of its contents. -/
theorem ok_bits (m : (ℓ : Loc Cert.Kernel.nD Cert.Kernel.τ Cert.Kernel.sig) → Buf (Elt Bits) ℓ) : Cert.Kernel.Gen.Ok m := by
  show Cert.Kernel.ok0 _
  unfold Cert.Kernel.ok0
  trivial
theorem ok_ideal (m : (ℓ : Loc Cert.KernelIdeal.nD Cert.KernelIdeal.τ Cert.KernelIdeal.sig) → Buf (Elt Ideal) ℓ) :
    Cert.KernelIdeal.Gen.Ok m := by
  show Cert.KernelIdeal.ok0 _
  unfold Cert.KernelIdeal.ok0
  trivial

theorem frame_k : Cert.frame_Kernel := fun m ρ _ => Cert.Kernel.Gen.frame m ρ (ok_bits m)
theorem frame_ki : Cert.frame_KernelIdeal := fun m ρ _ => Cert.KernelIdeal.Gen.frame m ρ (ok_ideal m)
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the voxel grid of the (shared) arguments. -/
theorem algebraic : Cert.algebraic_KernelIdeal_ReferenceIdeal := by
  intro m ρ m' ρ' hpre hagree
  refine ⟨fun c => Cert.Voxel.grid (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.KValue.run m ρ (ok_ideal m))
    exact Cert.Voxel.kernelOut_eq_grid _ _ (fun b => Cert.Voxel.counts_le _ _ (hpre c) b)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v71_eq, (hagree c).1, (hagree c).2, Cert.ReferenceIdeal.RValue.value_eq]
    exact Cert.Voxel.refOut_eq_grid _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
